-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x32 : Shape := ⟨3, ![32, 512, 32]⟩
abbrev S32x512 : Shape := ⟨2, ![32, 512]⟩
abbrev S50000x128 : Shape := ⟨2, ![50000, 128]⟩
abbrev S64x128 : Shape := ⟨2, ![64, 128]⟩
abbrev S64 : Shape := ⟨1, ![64]⟩
abbrev S50000x1 : Shape := ⟨2, ![50000, 1]⟩
abbrev S_ : Shape := ⟨0, ![]⟩

class Facts : Prop where
  bcast_S_S32x512x32 : S_.BroadcastsInDim S32x512x32 (![] : Fin 0 → Fin S32x512x32.rank)
  reducesTo_S32x512x32_S_d0_1_2 : S32x512x32.ReducesTo [0, 1, 2] S_
  h_S_ : 0 < S_.numel
  bcast_S_S32x512 : S_.BroadcastsInDim S32x512 (![] : Fin 0 → Fin S32x512.rank)
  reducesTo_S32x512_S_d0_1 : S32x512.ReducesTo [0, 1] S_
  bcast_S_S50000x128 : S_.BroadcastsInDim S50000x128 (![] : Fin 0 → Fin S50000x128.rank)
  reducesTo_S50000x128_S_d0_1 : S50000x128.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S50000x1 : S_.BroadcastsInDim S50000x1 (![] : Fin 0 → Fin S50000x1.rank)
  reducesTo_S50000x1_S_d0_1 : S50000x1.ReducesTo [0, 1] S_

variable [Facts]

def fn_part2 {F : FTy → Type} [FloatOps F] (main_arg8 : FVec F S50000x1 .f32) (main_arg9 : FVec F S50000x1 .f32) (main_v33 : IVec S_ 1) : IVec S_ 1 :=
  let main_v34 : FVec F S50000x1 .f32 := Host.absf main_arg8
  let main_cst_12 : FVec F S_ .f32 := constant S_ .f32 0x7F800000#32
  let main_v35 : FVec F S50000x1 .f32 := broadcastInDim S50000x1 ![] bcast_S_S50000x1 main_cst_12
  let main_v36 : IVec S50000x1 1 := cmpf .olt main_v34 main_v35
  let main_c_13 : IVec S_ 1 := constantI S_ 1 1#1
  let main_v37 : IVec S_ 1 := (fun x v => Host.reduce IntOp.andi x v reducesTo_S50000x1_S_d0_1 h_S_) main_v36 main_c_13
  let main_v38 : IVec S_ 1 := andi main_v33 main_v37
  let main_v39 : FVec F S50000x1 .f32 := Host.absf main_arg9
  let main_cst_14 : FVec F S_ .f32 := constant S_ .f32 0x7F800000#32
  let main_v40 : FVec F S50000x1 .f32 := broadcastInDim S50000x1 ![] bcast_S_S50000x1 main_cst_14
  let main_v41 : IVec S50000x1 1 := cmpf .olt main_v39 main_v40
  let main_c_15 : IVec S_ 1 := constantI S_ 1 1#1
  let main_v42 : IVec S_ 1 := (fun x v => Host.reduce IntOp.andi x v reducesTo_S50000x1_S_d0_1 h_S_) main_v41 main_c_15
  let main_v43 : IVec S_ 1 := andi main_v38 main_v42
  main_v43

def fn_part1 {F : FTy → Type} [FloatOps F] (main_arg5 : FVec F S64 .f32) (main_arg6 : FVec F S64x128 .f32) (main_arg7 : FVec F S64 .f32) (main_arg8 : FVec F S50000x1 .f32) (main_arg9 : FVec F S50000x1 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : IVec S32x512x32 32) (main_arg1 : FVec F S32x512x32 .f32) (main_arg2 : FVec F S32x512 .f32) (main_arg3 : FVec F S50000x128 .f32) (main_arg4 : FVec F S64x128 .f32) (main_arg5 : FVec F S64 .f32) (main_arg6 : FVec F S64x128 .f32) (main_arg7 : FVec F S64 .f32) (main_arg8 : FVec F S50000x1 .f32) (main_arg9 : FVec F S50000x1 .f32) : IVec S_ 1 :=
  let main_v0 : FVec F S32x512x32 .f32 := Host.absf main_arg1
  let main_cst : FVec F S_ .f32 := constant S_ .f32 0x7F800000#32
  let main_v1 : FVec F S32x512x32 .f32 := broadcastInDim S32x512x32 ![] bcast_S_S32x512x32 main_cst
  let main_v2 : IVec S32x512x32 1 := cmpf .olt main_v0 main_v1
  let main_c : IVec S_ 1 := constantI S_ 1 1#1
  let main_v3 : IVec S_ 1 := (fun x v => Host.reduce IntOp.andi x v reducesTo_S32x512x32_S_d0_1_2 h_S_) main_v2 main_c
  let main_v4 : FVec F S32x512 .f32 := Host.absf main_arg2
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S50000x128 .f32 := Host.absf main_arg3
  let main_cst_2 : FVec F S_ .f32 := constant S_ .f32 0x7F800000#32
  let main_v10 : FVec F S50000x128 .f32 := broadcastInDim S50000x128 ![] bcast_S_S50000x128 main_cst_2
  let main_v11 : IVec S50000x128 1 := cmpf .olt main_v9 main_v10
  let main_c_3 : IVec S_ 1 := constantI S_ 1 1#1
  let main_v12 : IVec S_ 1 := (fun x v => Host.reduce IntOp.andi x v reducesTo_S50000x128_S_d0_1 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_arg8 main_arg9 main_v13 main_v16
-- ==== Kernel.lean ====
abbrev S32x512x32 : Shape := ⟨3, ![32, 512, 32]⟩
abbrev S32x512 : Shape := ⟨2, ![32, 512]⟩
abbrev S50000x128 : Shape := ⟨2, ![50000, 128]⟩
abbrev S64x128 : Shape := ⟨2, ![64, 128]⟩
abbrev S64 : Shape := ⟨1, ![64]⟩
abbrev S50000x1 : Shape := ⟨2, ![50000, 1]⟩
abbrev S16384x32 : Shape := ⟨2, ![16384, 32]⟩
abbrev S16384x1 : Shape := ⟨2, ![16384, 1]⟩
abbrev S_ : Shape := ⟨0, ![]⟩
abbrev S16384x32x1 : Shape := ⟨3, ![16384, 32, 1]⟩
abbrev S16384x32x128 : Shape := ⟨3, ![16384, 32, 128]⟩
abbrev S1x64 : Shape := ⟨2, ![1, 64]⟩
abbrev S16384x128 : Shape := ⟨2, ![16384, 128]⟩
abbrev S128x32x128 : Shape := ⟨3, ![128, 32, 128]⟩
abbrev S128x32 : Shape := ⟨2, ![128, 32]⟩
abbrev S128x1 : Shape := ⟨2, ![128, 1]⟩
abbrev S128x128 : Shape := ⟨2, ![128, 128]⟩
abbrev S4096x128 : Shape := ⟨2, ![4096, 128]⟩
abbrev S128x64 : Shape := ⟨2, ![128, 64]⟩
abbrev S4096x64 : Shape := ⟨2, ![4096, 64]⟩
abbrev S128x32x64 : Shape := ⟨3, ![128, 32, 64]⟩
abbrev S128x32x1 : Shape := ⟨3, ![128, 32, 1]⟩
abbrev S128x1x32 : Shape := ⟨3, ![128, 1, 32]⟩
abbrev S128x32x32 : Shape := ⟨3, ![128, 32, 32]⟩
abbrev S32x512x128 : Shape := ⟨3, ![32, 512, 128]⟩

abbrev nBuf : Space → Nat
  | .hbm => 46
  | .vmem => 16
  | .smem => 0
  | _ => 0

abbrev bufTy : (tb : Table) → Fin (tcTables nBuf tb) → BufTy
  | .hbm, ⟨0, _⟩ => ⟨S32x512x32, .i32⟩
  | .hbm, ⟨1, _⟩ => ⟨S32x512x32, .f32⟩
  | .hbm, ⟨2, _⟩ => ⟨S32x512, .f32⟩
  | .hbm, ⟨3, _⟩ => ⟨S50000x128, .f32⟩
  | .hbm, ⟨4, _⟩ => ⟨S64x128, .f32⟩
  | .hbm, ⟨5, _⟩ => ⟨S64, .f32⟩
  | .hbm, ⟨6, _⟩ => ⟨S64x128, .f32⟩
  | .hbm, ⟨7, _⟩ => ⟨S64, .f32⟩
  | .hbm, ⟨8, _⟩ => ⟨S50000x1, .f32⟩
  | .hbm, ⟨9, _⟩ => ⟨S50000x1, .f32⟩
  | .hbm, ⟨10, _⟩ => ⟨S16384x32, .i32⟩
  | .hbm, ⟨11, _⟩ => ⟨S16384x32, .f32⟩
  | .hbm, ⟨12, _⟩ => ⟨S16384x1, .f32⟩
  | .hbm, ⟨13, _⟩ => ⟨S_, .i32⟩
  | .hbm, ⟨14, _⟩ => ⟨S16384x32, .i32⟩
  | .hbm, ⟨15, _⟩ => ⟨S16384x32, .i1⟩
  | .hbm, ⟨16, _⟩ => ⟨S_, .i32⟩
  | .hbm, ⟨17, _⟩ => ⟨S16384x32, .i32⟩
  | .hbm, ⟨18, _⟩ => ⟨S16384x32, .i32⟩
  | .hbm, ⟨19, _⟩ => ⟨S16384x32, .i32⟩
  | .hbm, ⟨20, _⟩ => ⟨S16384x32x1, .i32⟩
  | .hbm, ⟨21, _⟩ => ⟨S16384x32x128, .f32⟩
  | .hbm, ⟨22, _⟩ => ⟨S_, .i32⟩
  | .hbm, ⟨23, _⟩ => ⟨S16384x32, .i32⟩
  | .hbm, ⟨24, _⟩ => ⟨S16384x32, .i1⟩
  | .hbm, ⟨25, _⟩ => ⟨S_, .i32⟩
  | .hbm, ⟨26, _⟩ => ⟨S16384x32, .i32⟩
  | .hbm, ⟨27, _⟩ => ⟨S16384x32, .i32⟩
  | .hbm, ⟨28, _⟩ => ⟨S16384x32, .i32⟩
  | .hbm, ⟨29, _⟩ => ⟨S16384x32x1, .i32⟩
  | .hbm, ⟨30, _⟩ => ⟨S16384x32x1, .f32⟩
  | .hbm, ⟨31, _⟩ => ⟨S16384x32, .f32⟩
  | .hbm, ⟨32, _⟩ => ⟨S_, .i32⟩
  | .hbm, ⟨33, _⟩ => ⟨S16384x32, .i32⟩
  | .hbm, ⟨34, _⟩ => ⟨S16384x32, .i1⟩
  | .hbm, ⟨35, _⟩ => ⟨S_, .i32⟩
  | .hbm, ⟨36, _⟩ => ⟨S16384x32, .i32⟩
  | .hbm, ⟨37, _⟩ => ⟨S16384x32, .i32⟩
  | .hbm, ⟨38, _⟩ => ⟨S16384x32, .i32⟩
  | .hbm, ⟨39, _⟩ => ⟨S16384x32x1, .i32⟩
  | .hbm, ⟨40, _⟩ => ⟨S16384x32x1, .f32⟩
  | .hbm, ⟨41, _⟩ => ⟨S16384x32, .f32⟩
  | .hbm, ⟨42, _⟩ => ⟨S1x64, .f32⟩
  | .hbm, ⟨43, _⟩ => ⟨S1x64, .f32⟩
  | .hbm, ⟨44, _⟩ => ⟨S16384x128, .f32⟩
  | .hbm, ⟨45, _⟩ => ⟨S32x512x128, .f32⟩
  | .local _ .vmem, ⟨0, _⟩ => ⟨S128x32x128, .f32⟩
  | .local _ .vmem, ⟨1, _⟩ => ⟨S128x32x128, .f32⟩
  | .local _ .vmem, ⟨2, _⟩ => ⟨S128x32, .f32⟩
  | .local _ .vmem, ⟨3, _⟩ => ⟨S128x32, .f32⟩
  | .local _ .vmem, ⟨4, _⟩ => ⟨S128x32, .f32⟩
  | .local _ .vmem, ⟨5, _⟩ => ⟨S128x32, .f32⟩
  | .local _ .vmem, ⟨6, _⟩ => ⟨S128x32, .f32⟩
  | .local _ .vmem, ⟨7, _⟩ => ⟨S128x32, .f32⟩
  | .local _ .vmem, ⟨8, _⟩ => ⟨S128x1, .f32⟩
  | .local _ .vmem, ⟨9, _⟩ => ⟨S128x1, .f32⟩
  | .local _ .vmem, ⟨10, _⟩ => ⟨S64x128, .f32⟩
  | .local _ .vmem, ⟨11, _⟩ => ⟨S1x64, .f32⟩
  | .local _ .vmem, ⟨12, _⟩ => ⟨S64x128, .f32⟩
  | .local _ .vmem, ⟨13, _⟩ => ⟨S1x64, .f32⟩
  | .local _ .vmem, ⟨14, _⟩ => ⟨S128x128, .f32⟩
  | .local _ .vmem, ⟨15, _⟩ => ⟨S128x128, .f32⟩
  | _, _ => ⟨S32x512x32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S32x512x32_S16384x32 : S32x512x32.ShapeCasts S16384x32
  shapeCasts_S32x512_S16384x1 : S32x512.ShapeCasts S16384x1
  bcast_S_S16384x32 : S_.BroadcastsInDim S16384x32 (![] : Fin 0 → Fin S16384x32.rank)
  bcast_S16384x32_S16384x32x1_0_1 : S16384x32.BroadcastsInDim S16384x32x1 (![0, 1] : Fin 2 → Fin S16384x32x1.rank)
  shapeCasts_S16384x32x1_S16384x32 : S16384x32x1.ShapeCasts S16384x32
  shapeCasts_S64_S1x64 : S64.ShapeCasts S1x64
  inb_S128x32x128_S128x32x128_0_0_0 : ∀ a, (![0, 0, 0] : Fin 3 → Nat) a + S128x32x128.size a ≤ S128x32x128.size a
  h_S128x32x128 : 0 < S128x32x128.numel
  shapeCasts_S128x32x128_S128x32x128 : S128x32x128.ShapeCasts S128x32x128
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S128x1_S128x1_0_0 : ∀ a, (![0, 0] : Fin 2 → Nat) a + S128x1.size a ≤ S128x1.size a
  h_S128x1 : 0 < S128x1.numel
  shapeCasts_S128x1_S128x1 : S128x1.ShapeCasts S128x1
  bitsLt_bf16_f32 : FTy.bits .bf16 < FTy.bits .f32
  shapeCasts_S128x32x128_S4096x128 : S128x32x128.ShapeCasts S4096x128
  inb_S64x128_S64x128_0_0 : ∀ a, (![0, 0] : Fin 2 → Nat) a + S64x128.size a ≤ S64x128.size a
  h_S64x128 : 0 < S64x128.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  transposes_S64x128_p1_0_S128x64 : S64x128.Transposes [1, 0] S128x64
  broadcasts_S1x64_S4096x64 : S1x64.Broadcasts S4096x64
  shapeCasts_S4096x64_S128x32x64 : S4096x64.ShapeCasts S128x32x64
  shapeCasts_S128x32_S128x32x1 : S128x32.ShapeCasts S128x32x1
  shapeCasts_S128x32_S128x1x32 : S128x32.ShapeCasts S128x1x32
  broadcasts_S128x32x1_S128x32x32 : S128x32x1.Broadcasts S128x32x32
  broadcasts_S128x1x32_S128x32x32 : S128x1x32.Broadcasts S128x32x32
  reduces_S128x32x32_S128x32 : S128x32x32.Reduces [2] S128x32
  broadcasts_S128x1_S128x32 : S128x1.Broadcasts S128x32
  broadcasts_S128x32x1_S128x32x128 : S128x32x1.Broadcasts S128x32x128
  reduces_S128x32x128_S128x128 : S128x32x128.Reduces [1] S128x128
  inb_S128x128_S128x128_0_0 : ∀ a, (![0, 0] : Fin 2 → Nat) a + S128x128.size a ≤ S128x128.size a
  h_S128x128 : 0 < S128x128.numel
  shapeCasts_S16384x128_S32x512x128 : S16384x128.ShapeCasts S32x512x128
  gather_S50000x128_S16384x32x1_S16384x32x128_2_0_n_n_0_2_1128_wf : GatherDims.WF S50000x128 S16384x32x1 S16384x32x128 [2] [0] [] [0] [] 2 ![1, 128]
  gather_S50000x1_S16384x32x1_S16384x32x1_2_0_n_n_0_2_11_wf : GatherDims.WF S50000x1 S16384x32x1 S16384x32x1 [2] [0] [] [0] [] 2 ![1, 1]
  dot_S4096x128_S128x64_S4096x64_1_0_0_1_n_n_wf : DotDims.WF S4096x128 S128x64 S4096x64 [1] [0] [0] [1] [] []
  dot_S128x32x64_S128x32x64_S128x32x32_2_2_1_1_0_0_wf : DotDims.WF S128x32x64 S128x32x64 S128x32x32 [2] [2] [1] [1] [0] [0]
  dot_S128x32x32_S128x32x128_S128x32x128_2_1_1_2_0_0_wf : DotDims.WF S128x32x32 S128x32x128 S128x32x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x32x128.size a ≤ S16384x32x128.size a
  hwx0_0 : ∀ i : grid0.Coords, EltTy.bits .f32 = 32 ∨ (Rect.block (s := S16384x32x128) S128x32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S16384x32.size a
  hwx0_1 : ∀ i : grid0.Coords, EltTy.bits .f32 = 32 ∨ (Rect.block (s := S16384x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S16384x32.size a
  hwx0_2 : ∀ i : grid0.Coords, EltTy.bits .f32 = 32 ∨ (Rect.block (s := S16384x32) S128x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x32.size a ≤ S16384x32.size a
  hwx0_3 : ∀ i : grid0.Coords, EltTy.bits .f32 = 32 ∨ (Rect.block (s := S16384x32) S128x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S16384x1.size a
  hwx0_4 : ∀ i : grid0.Coords, EltTy.bits .f32 = 32 ∨ (Rect.block (s := S16384x1) S128x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x128.size a ≤ S64x128.size a
  hwx0_7 : ∀ i : grid0.Coords, EltTy.bits .f32 = 32 ∨ (Rect.block (s := S64x128) S64x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S16384x128.size a
  hwx0_9 : ∀ i : grid0.Coords, EltTy.bits .f32 = 32 ∨ (Rect.block (s := S16384x128) S128x128.size (cc0_transform_9 i) (hinb0_9 i)).WholeWords (EltTy.packing .f32)

variable [Facts₀]

def gather_S50000x128_S16384x32x1_S16384x32x128_2_0_n_n_0_2_1128 : GatherDims S50000x128 S16384x32x1 S16384x32x128 where
  offsetDims := [2]
  collapsedSliceDims := [0]
  operandBatchingDims := []
  startIndicesBatchingDims := []
  startIndexMap := [0]
  indexVectorDim := 2
  sliceSizes := ![1, 128]
  wf := gather_S50000x128_S16384x32x1_S16384x32x128_2_0_n_n_0_2_1128_wf
def gather_S50000x1_S16384x32x1_S16384x32x1_2_0_n_n_0_2_11 : GatherDims S50000x1 S16384x32x1 S16384x32x1 where
  offsetDims := [2]
  collapsedSliceDims := [0]
  operandBatchingDims := []
  startIndicesBatchingDims := []
  startIndexMap := [0]
  indexVectorDim := 2
  sliceSizes := ![1, 1]
  wf := gather_S50000x1_S16384x32x1_S16384x32x1_2_0_n_n_0_2_11_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S128x32x64_S128x32x64_S128x32x32_2_2_1_1_0_0 : DotDims S128x32x64 S128x32x64 S128x32x32 where
  lhsContracting := [2]
  rhsContracting := [2]
  lhsNonContracting := [1]
  rhsNonContracting := [1]
  lhsBatch := [0]
  rhsBatch := [0]
  wf := dot_S128x32x64_S128x32x64_S128x32x32_2_2_1_1_0_0_wf
def dot_S128x32x32_S128x32x128_S128x32x128_2_1_1_2_0_0 : DotDims S128x32x32 S128x32x128 S128x32x128 where
  lhsContracting := [2]
  rhsContracting := [1]
  lhsNonContracting := [1]
  rhsNonContracting := [2]
  lhsBatch := [0]
  rhsBatch := [0]
  wf := dot_S128x32x32_S128x32x128_S128x32x128_2_1_1_2_0_0_wf

abbrev win0_0 : Pipeline.Window sig grid0 :=
  Pipeline.Window.ofSpec (Memref.whole main_v9) S128x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S128x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S128x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S128x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S64x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v27) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v28) S128x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S32x512x32 : Shape := ⟨3, ![32, 512, 32]⟩
abbrev S32x512 : Shape := ⟨2, ![32, 512]⟩
abbrev S50000x128 : Shape := ⟨2, ![50000, 128]⟩
abbrev S64x128 : Shape := ⟨2, ![64, 128]⟩
abbrev S64 : Shape := ⟨1, ![64]⟩
abbrev S50000x1 : Shape := ⟨2, ![50000, 1]⟩
abbrev S16384x32 : Shape := ⟨2, ![16384, 32]⟩
abbrev S16384 : Shape := ⟨1, ![16384]⟩
abbrev S_ : Shape := ⟨0, ![]⟩
abbrev S16384x32x1 : Shape := ⟨3, ![16384, 32, 1]⟩
abbrev S16384x32x128 : Shape := ⟨3, ![16384, 32, 128]⟩
abbrev S16384x32x64 : Shape := ⟨3, ![16384, 32, 64]⟩
abbrev S1x1x64 : Shape := ⟨3, ![1, 1, 64]⟩
abbrev S16384x1x32 : Shape := ⟨3, ![16384, 1, 32]⟩
abbrev S16384x32x32 : Shape := ⟨3, ![16384, 32, 32]⟩
abbrev S16384x1 : Shape := ⟨2, ![16384, 1]⟩
abbrev S16384x128 : Shape := ⟨2, ![16384, 128]⟩
abbrev S32x512x128 : Shape := ⟨3, ![32, 512, 128]⟩

abbrev nBuf : Space → Nat
  | .hbm => 103
  | .vmem => 0
  | .smem => 0
  | _ => 0

abbrev bufTy : (tb : Table) → Fin (tcTables nBuf tb) → BufTy
  | .hbm, ⟨0, _⟩ => ⟨S32x512x32, .i32⟩
  | .hbm, ⟨1, _⟩ => ⟨S32x512x32, .f32⟩
  | .hbm, ⟨2, _⟩ => ⟨S32x512, .f32⟩
  | .hbm, ⟨3, _⟩ => ⟨S50000x128, .f32⟩
  | .hbm, ⟨4, _⟩ => ⟨S64x128, .f32⟩
  | .hbm, ⟨5, _⟩ => ⟨S64, .f32⟩
  | .hbm, ⟨6, _⟩ => ⟨S64x128, .f32⟩
  | .hbm, ⟨7, _⟩ => ⟨S64, .f32⟩
  | .hbm, ⟨8, _⟩ => ⟨S50000x1, .f32⟩
  | .hbm, ⟨9, _⟩ => ⟨S50000x1, .f32⟩
  | .hbm, ⟨10, _⟩ => ⟨S16384x32, .i32⟩
  | .hbm, ⟨11, _⟩ => ⟨S16384x32, .f32⟩
  | .hbm, ⟨12, _⟩ => ⟨S16384, .f32⟩
  | .hbm, ⟨13, _⟩ => ⟨S_, .i32⟩
  | .hbm, ⟨14, _⟩ => ⟨S16384x32, .i32⟩
  | .hbm, ⟨15, _⟩ => ⟨S16384x32, .i1⟩
  | .hbm, ⟨16, _⟩ => ⟨S_, .i32⟩
  | .hbm, ⟨17, _⟩ => ⟨S16384x32, .i32⟩
  | .hbm, ⟨18, _⟩ => ⟨S16384x32, .i32⟩
  | .hbm, ⟨19, _⟩ => ⟨S16384x32, .i32⟩
  | .hbm, ⟨20, _⟩ => ⟨S16384x32x1, .i32⟩
  | .hbm, ⟨21, _⟩ => ⟨S16384x32x128, .f32⟩
  | .hbm, ⟨22, _⟩ => ⟨S16384x32x64, .f32⟩
  | .hbm, ⟨23, _⟩ => ⟨S1x1x64, .f32⟩
  | .hbm, ⟨24, _⟩ => ⟨S16384x32x64, .f32⟩
  | .hbm, ⟨25, _⟩ => ⟨S16384x32x64, .f32⟩
  | .hbm, ⟨26, _⟩ => ⟨S16384x32x64, .f32⟩
  | .hbm, ⟨27, _⟩ => ⟨S1x1x64, .f32⟩
  | .hbm, ⟨28, _⟩ => ⟨S16384x32x64, .f32⟩
  | .hbm, ⟨29, _⟩ => ⟨S16384x32x64, .f32⟩
  | .hbm, ⟨30, _⟩ => ⟨S16384x32x1, .f32⟩
  | .hbm, ⟨31, _⟩ => ⟨S_, .f32⟩
  | .hbm, ⟨32, _⟩ => ⟨S16384x32x1, .f32⟩
  | .hbm, ⟨33, _⟩ => ⟨S16384x32x1, .i1⟩
  | .hbm, ⟨34, _⟩ => ⟨S_, .f32⟩
  | .hbm, ⟨35, _⟩ => ⟨S_, .f32⟩
  | .hbm, ⟨36, _⟩ => ⟨S16384x32x1, .f32⟩
  | .hbm, ⟨37, _⟩ => ⟨S16384x32x1, .f32⟩
  | .hbm, ⟨38, _⟩ => ⟨S16384x32x1, .f32⟩
  | .hbm, ⟨39, _⟩ => ⟨S16384x1x32, .f32⟩
  | .hbm, ⟨40, _⟩ => ⟨S16384x32x32, .f32⟩
  | .hbm, ⟨41, _⟩ => ⟨S16384x32x32, .f32⟩
  | .hbm, ⟨42, _⟩ => ⟨S16384x32x32, .f32⟩
  | .hbm, ⟨43, _⟩ => ⟨S16384x32x32, .f32⟩
  | .hbm, ⟨44, _⟩ => ⟨S_, .f32⟩
  | .hbm, ⟨45, _⟩ => ⟨S16384x32x32, .f32⟩
  | .hbm, ⟨46, _⟩ => ⟨S16384x32x32, .f32⟩
  | .hbm, ⟨47, _⟩ => ⟨S16384x32x32, .f32⟩
  | .hbm, ⟨48, _⟩ => ⟨S16384x32x32, .f32⟩
  | .hbm, ⟨49, _⟩ => ⟨S_, .f32⟩
  | .hbm, ⟨50, _⟩ => ⟨S16384x32, .f32⟩
  | .hbm, ⟨51, _⟩ => ⟨S_, .f32⟩
  | .hbm, ⟨52, _⟩ => ⟨S16384x32, .f32⟩
  | .hbm, ⟨53, _⟩ => ⟨S16384x32, .f32⟩
  | .hbm, ⟨54, _⟩ => ⟨S16384x32x1, .f32⟩
  | .hbm, ⟨55, _⟩ => ⟨S16384x32x32, .f32⟩
  | .hbm, ⟨56, _⟩ => ⟨S16384x32x32, .f32⟩
  | .hbm, ⟨57, _⟩ => ⟨S16384x32x32, .f32⟩
  | .hbm, ⟨58, _⟩ => ⟨S_, .f32⟩
  | .hbm, ⟨59, _⟩ => ⟨S16384x32, .f32⟩
  | .hbm, ⟨60, _⟩ => ⟨S16384x32x1, .f32⟩
  | .hbm, ⟨61, _⟩ => ⟨S16384x32x32, .f32⟩
  | .hbm, ⟨62, _⟩ => ⟨S16384x32x32, .f32⟩
  | .hbm, ⟨63, _⟩ => ⟨S16384x32x128, .f32⟩
  | .hbm, ⟨64, _⟩ => ⟨S_, .i32⟩
  | .hbm, ⟨65, _⟩ => ⟨S16384x32, .i32⟩
  | .hbm, ⟨66, _⟩ => ⟨S16384x32, .i1⟩
  | .hbm, ⟨67, _⟩ => ⟨S_, .i32⟩
  | .hbm, ⟨68, _⟩ => ⟨S16384x32, .i32⟩
  | .hbm, ⟨69, _⟩ => ⟨S16384x32, .i32⟩
  | .hbm, ⟨70, _⟩ => ⟨S16384x32, .i32⟩
  | .hbm, ⟨71, _⟩ => ⟨S16384x32x1, .i32⟩
  | .hbm, ⟨72, _⟩ => ⟨S16384x32x1, .f32⟩
  | .hbm, ⟨73, _⟩ => ⟨S16384x32, .f32⟩
  | .hbm, ⟨74, _⟩ => ⟨S_, .i32⟩
  | .hbm, ⟨75, _⟩ => ⟨S16384x32, .i32⟩
  | .hbm, ⟨76, _⟩ => ⟨S16384x32, .i1⟩
  | .hbm, ⟨77, _⟩ => ⟨S_, .i32⟩
  | .hbm, ⟨78, _⟩ => ⟨S16384x32, .i32⟩
  | .hbm, ⟨79, _⟩ => ⟨S16384x32, .i32⟩
  | .hbm, ⟨80, _⟩ => ⟨S16384x32, .i32⟩
  | .hbm, ⟨81, _⟩ => ⟨S16384x32x1, .i32⟩
  | .hbm, ⟨82, _⟩ => ⟨S16384x32x1, .f32⟩
  | .hbm, ⟨83, _⟩ => ⟨S16384x32, .f32⟩
  | .hbm, ⟨84, _⟩ => ⟨S16384x1, .f32⟩
  | .hbm, ⟨85, _⟩ => ⟨S16384x32, .f32⟩
  | .hbm, ⟨86, _⟩ => ⟨S16384x32, .f32⟩
  | .hbm, ⟨87, _⟩ => ⟨S16384x32, .f32⟩
  | .hbm, ⟨88, _⟩ => ⟨S16384x32, .f32⟩
  | .hbm, ⟨89, _⟩ => ⟨S16384x32, .f32⟩
  | .hbm, ⟨90, _⟩ => ⟨S_, .f32⟩
  | .hbm, ⟨91, _⟩ => ⟨S16384x32, .f32⟩
  | .hbm, ⟨92, _⟩ => ⟨S16384x32, .f32⟩
  | .hbm, ⟨93, _⟩ => ⟨S_, .f32⟩
  | .hbm, ⟨94, _⟩ => ⟨S16384x32, .f32⟩
  | .hbm, ⟨95, _⟩ => ⟨S16384x32, .f32⟩
  | .hbm, ⟨96, _⟩ => ⟨S16384x32, .f32⟩
  | .hbm, ⟨97, _⟩ => ⟨S16384x32x1, .f32⟩
  | .hbm, ⟨98, _⟩ => ⟨S16384x32x128, .f32⟩
  | .hbm, ⟨99, _⟩ => ⟨S16384x32x128, .f32⟩
  | .hbm, ⟨100, _⟩ => ⟨S_, .f32⟩
  | .hbm, ⟨101, _⟩ => ⟨S16384x128, .f32⟩
  | .hbm, ⟨102, _⟩ => ⟨S32x512x128, .f32⟩
  | _, _ => ⟨S32x512x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_cst_1 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_7 : Ref sig .tc := ⟨.hbm, 64, rfl⟩
abbrev main_v43 : Ref sig .tc := ⟨.hbm, 65, rfl⟩
abbrev main_v44 : Ref sig .tc := ⟨.hbm, 66, rfl⟩
abbrev main_c_8 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_9 : Ref sig .tc := ⟨.hbm, 74, rfl⟩
abbrev main_v51 : Ref sig .tc := ⟨.hbm, 75, rfl⟩
abbrev main_v52 : Ref sig .tc := ⟨.hbm, 76, rfl⟩
abbrev main_c_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_11 : Ref sig .tc := ⟨.hbm, 90, rfl⟩
abbrev main_v65 : Ref sig .tc := ⟨.hbm, 91, rfl⟩
abbrev main_v66 : Ref sig .tc := ⟨.hbm, 92, rfl⟩
abbrev main_cst_12 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_13 : Ref sig .tc := ⟨.hbm, 100, rfl⟩
abbrev main_v73 : Ref sig .tc := ⟨.hbm, 101, rfl⟩
abbrev main_v74 : Ref sig .tc := ⟨.hbm, 102, rfl⟩

abbrev nD : Nat := 1
abbrev τ : Topo := Topo.v7x

variable {F : FTy → Type} [FloatOps F]

class Facts₀ : Prop where
  shapeCasts_S32x512x32_S16384x32 : S32x512x32.ShapeCasts S16384x32
  shapeCasts_S32x512_S16384 : S32x512.ShapeCasts S16384
  bcast_S_S16384x32 : S_.BroadcastsInDim S16384x32 (![] : Fin 0 → Fin S16384x32.rank)
  bcast_S16384x32_S16384x32x1_0_1 : S16384x32.BroadcastsInDim S16384x32x1 (![0, 1] : Fin 2 → Fin S16384x32x1.rank)
  bcast_S64_S1x1x64_2 : S64.BroadcastsInDim S1x1x64 (![2] : Fin 1 → Fin S1x1x64.rank)
  bcast_S1x1x64_S16384x32x64_0_1_2 : S1x1x64.BroadcastsInDim S16384x32x64 (![0, 1, 2] : Fin 3 → Fin S16384x32x64.rank)
  bcast_S_S16384x32x1 : S_.BroadcastsInDim S16384x32x1 (![] : Fin 0 → Fin S16384x32x1.rank)
  transposes_S16384x32x1_S16384x1x32_0_2_1 : S16384x32x1.Transposes [0, 2, 1] S16384x1x32
  bcast_S16384x32x1_S16384x32x32_0_1_2 : S16384x32x1.BroadcastsInDim S16384x32x32 (![0, 1, 2] : Fin 3 → Fin S16384x32x32.rank)
  bcast_S16384x1x32_S16384x32x32_0_1_2 : S16384x1x32.BroadcastsInDim S16384x32x32 (![0, 1, 2] : Fin 3 → Fin S16384x32x32.rank)
  bcast_S_S16384x32x32 : S_.BroadcastsInDim S16384x32x32 (![] : Fin 0 → Fin S16384x32x32.rank)
  reducesTo_S16384x32x32_S16384x32_d2 : S16384x32x32.ReducesTo [2] S16384x32
  h_S_ : 0 < S_.numel
  shapeCasts_S16384x32x1_S16384x32 : S16384x32x1.ShapeCasts S16384x32
  bcast_S16384_S16384x1_0 : S16384.BroadcastsInDim S16384x1 (![0] : Fin 1 → Fin S16384x1.rank)
  bcast_S16384x1_S16384x32_0_1 : S16384x1.BroadcastsInDim S16384x32 (![0, 1] : Fin 2 → Fin S16384x32.rank)
  bcast_S16384x32x1_S16384x32x128_0_1_2 : S16384x32x1.BroadcastsInDim S16384x32x128 (![0, 1, 2] : Fin 3 → Fin S16384x32x128.rank)
  reducesTo_S16384x32x128_S16384x128_d1 : S16384x32x128.ReducesTo [1] S16384x128
  shapeCasts_S16384x128_S32x512x128 : S16384x128.ShapeCasts S32x512x128
  gather_S50000x128_S16384x32x1_S16384x32x128_2_0_n_n_0_2_1128_wf : GatherDims.WF S50000x128 S16384x32x1 S16384x32x128 [2] [0] [] [0] [] 2 ![1, 128]
  dot_S16384x32x128_S64x128_S16384x32x64_2_1_01_0_n_n_wf : DotDims.WF S16384x32x128 S64x128 S16384x32x64 [2] [1] [0, 1] [0] [] []
  dot_S16384x32x64_S16384x32x64_S16384x32x32_2_2_1_1_0_0_wf : DotDims.WF S16384x32x64 S16384x32x64 S16384x32x32 [2] [2] [1] [1] [0] [0]
  dot_S16384x32x32_S16384x32x128_S16384x32x128_2_1_1_2_0_0_wf : DotDims.WF S16384x32x32 S16384x32x128 S16384x32x128 [2] [1] [1] [2] [0] [0]
  gather_S50000x1_S16384x32x1_S16384x32x1_2_0_n_n_0_2_11_wf : GatherDims.WF S50000x1 S16384x32x1 S16384x32x1 [2] [0] [] [0] [] 2 ![1, 1]

variable [Facts₀]

def gather_S50000x128_S16384x32x1_S16384x32x128_2_0_n_n_0_2_1128 : GatherDims S50000x128 S16384x32x1 S16384x32x128 where
  offsetDims := [2]
  collapsedSliceDims := [0]
  operandBatchingDims := []
  startIndicesBatchingDims := []
  startIndexMap := [0]
  indexVectorDim := 2
  sliceSizes := ![1, 128]
  wf := gather_S50000x128_S16384x32x1_S16384x32x128_2_0_n_n_0_2_1128_wf
def dot_S16384x32x128_S64x128_S16384x32x64_2_1_01_0_n_n : DotDims S16384x32x128 S64x128 S16384x32x64 where
  lhsContracting := [2]
  rhsContracting := [1]
  lhsNonContracting := [0, 1]
  rhsNonContracting := [0]
  lhsBatch := []
  rhsBatch := []
  wf := dot_S16384x32x128_S64x128_S16384x32x64_2_1_01_0_n_n_wf
def dot_S16384x32x64_S16384x32x64_S16384x32x32_2_2_1_1_0_0 : DotDims S16384x32x64 S16384x32x64 S16384x32x32 where
  lhsContracting := [2]
  rhsContracting := [2]
  lhsNonContracting := [1]
  rhsNonContracting := [1]
  lhsBatch := [0]
  rhsBatch := [0]
  wf := dot_S16384x32x64_S16384x32x64_S16384x32x32_2_2_1_1_0_0_wf
def dot_S16384x32x32_S16384x32x128_S16384x32x128_2_1_1_2_0_0 : DotDims S16384x32x32 S16384x32x128 S16384x32x128 where
  lhsContracting := [2]
  rhsContracting := [1]
  lhsNonContracting := [1]
  rhsNonContracting := [2]
  lhsBatch := [0]
  rhsBatch := [0]
  wf := dot_S16384x32x32_S16384x32x128_S16384x32x128_2_1_1_2_0_0_wf
def gather_S50000x1_S16384x32x1_S16384x32x1_2_0_n_n_0_2_11 : GatherDims S50000x1 S16384x32x1 S16384x32x1 where
  offsetDims := [2]
  collapsedSliceDims := [0]
  operandBatchingDims := []
  startIndicesBatchingDims := []
  startIndexMap := [0]
  indexVectorDim := 2
  sliceSizes := ![1, 1]
  wf := gather_S50000x1_S16384x32x1_S16384x32x1_2_0_n_n_0_2_11_wf

class Facts : Prop extends Facts₀ where

variable [Facts]
-- ==== Proof.Spec.lean ====
/-
  Attention pooling over sets of concepts, row by row.

  For one row of the flattened batch the data are 32 concept embeddings x[n, ·] in dimension 128, a 0/1
  mask, two per-concept decay parameters and one time stamp. Queries and keys are affine images of the
  embeddings, q[n, h] = Σ_k x[n, k]·W[h, k] + bias[h]. The logit between concepts n and m is the scaled
  inner product of q[n, ·] and k[m, ·] plus the product f[n]·f[m] of the mask fills (0 on a kept
  concept, −10⁹ on a dropped one). Each row of logits is turned into weights by the shifted
  exponential divided by its sum (the shift is the row's maximum), the weights mix the embeddings,
  and the mixed rows are summed over n with the weight sigmoid(θ[n] − μ[n]·t)·mask[n].

  Everything is stated on the extended reals, with the scaling of the logits `sc` and the sigmoid
  `sg` as parameters: one program multiplies by 1/8 and uses the logistic function, the other divides
  by 8 and spells 1/(1 + e^(−x)). The two laws at the end say that these are the same functions.
-/
import Idealize.ShloMosaic.PureOps.Ideal.Laws
import Idealize.ShloMosaic.Lib.ValueIdx

noncomputable section

namespace Cert.AttnPool

open Idealize.ShloMosaic Idealize.ShloMosaic.ValueIdx

/-- The word of −∞, from which both programs start a row's maximum. -/
abbrev negInf : EReal := Ideal.ofBits .f32 0xFF800000#32

/-- q[n, h] = Σ_k x[n, k]·W[h, k] + bias[h]: one row's affine image. -/
def proj (x : Fin 32 → Fin 128 → EReal) (W : Fin 64 → Fin 128 → EReal) (bias : Fin 64 → EReal)
    (n : Fin 32) (h : Fin 64) : EReal :=
  (∑ k : Fin 128, x n k * W h k) + bias h

/-- The mask fill: 0 where the mask entry exceeds one half, −10⁹ elsewhere. -/
def fill (mk : EReal) : EReal :=
  Scalar.select (Ideal.cmp .ogt mk (Ideal.ofBits .f32 0x3F000000#32))
    (Ideal.ofBits .f32 0x00000000#32) (Ideal.ofBits .f32 0xCE6E6B28#32)

/-- The logit between concepts n and m. -/
def score (sc : EReal → EReal) (q k : Fin 32 → Fin 64 → EReal) (f : Fin 32 → EReal) (n m : Fin 32) : EReal :=
  sc (∑ h : Fin 64, q n h * k m h) + f n * f m

/-- A row's maximum, started from −∞ (and compared with −∞ once more, as both programs do). -/
def rowMax (s : Fin 32 → Fin 32 → EReal) (n : Fin 32) : EReal :=
  max negInf ((Finset.univ : Finset (Fin 32)).fold max negInf (fun m => s n m))

/-- The shifted exponential of a logit. -/
def expd (s : Fin 32 → Fin 32 → EReal) (n m : Fin 32) : EReal :=
  Ideal.exp (s n m - rowMax s n)

/-- The attention weight: the shifted exponential over its row sum. -/
def attn (s : Fin 32 → Fin 32 → EReal) (n m : Fin 32) : EReal :=
  Ideal.div (expd s n m) (∑ m' : Fin 32, expd s n m')

/-- The embeddings mixed by a row of weights. -/
def mix (a : Fin 32 → Fin 32 → EReal) (x : Fin 32 → Fin 128 → EReal) (n : Fin 32) (d : Fin 128) : EReal :=
  ∑ m : Fin 32, a n m * x m d

/-- The pooling weight of concept n: sigmoid(θ[n] − μ[n]·t)·mask[n]. -/
def weight (sg : EReal → EReal) (mk th mu : Fin 32 → EReal) (t : EReal) (n : Fin 32) : EReal :=
  sg (th n - mu n * t) * mk n

/-- One row's pooled vector from the row's embeddings, queries, keys, fills, mask, decay parameters and time. -/
def poolRow (sc sg : EReal → EReal) (x : Fin 32 → Fin 128 → EReal) (q k : Fin 32 → Fin 64 → EReal)
    (f mk th mu : Fin 32 → EReal) (t : EReal) (d : Fin 128) : EReal :=
  ∑ n : Fin 32, mix (attn (score sc q k f)) x n d * weight sg mk th mu t n

/-- The pooled entry (b, d) from the gathered arrays: embeddings X[b, n, k], mask, θ and μ at [b, n], the
    time stamp T b, and the two affine maps. -/
def pooledAt (sc sg : EReal → EReal) (X : (⟨3, ![16384, 32, 128]⟩ : Shape).Idx → EReal)
    (Mk TH MU : (⟨2, ![16384, 32]⟩ : Shape).Idx → EReal) (T : Fin 16384 → EReal)
    (qW : (⟨2, ![64, 128]⟩ : Shape).Idx → EReal) (qb : Fin 64 → EReal)
    (kW : (⟨2, ![64, 128]⟩ : Shape).Idx → EReal) (kb : Fin 64 → EReal) (b : Fin 16384) (d : Fin 128) : EReal :=
  poolRow sc sg (fun n k => X (ix3 b n k))
    (proj (fun n k => X (ix3 b n k)) (fun h k => qW (ix2 h k)) qb)
    (proj (fun n k => X (ix3 b n k)) (fun h k => kW (ix2 h k)) kb)
    (fun n => fill (Mk (ix2 b n))) (fun n => Mk (ix2 b n)) (fun n => TH (ix2 b n)) (fun n => MU (ix2 b n)) (T b) d

/-- The pooled array [16384, 128]. -/
def pooled (sc sg : EReal → EReal) (X : (⟨3, ![16384, 32, 128]⟩ : Shape).Idx → EReal)
    (Mk TH MU : (⟨2, ![16384, 32]⟩ : Shape).Idx → EReal) (T : Fin 16384 → EReal)
    (qW : (⟨2, ![64, 128]⟩ : Shape).Idx → EReal) (qb : Fin 64 → EReal)
    (kW : (⟨2, ![64, 128]⟩ : Shape).Idx → EReal) (kb : Fin 64 → EReal) :
    (⟨2, ![16384, 128]⟩ : Shape).Idx → EReal :=
  fun j => pooledAt sc sg X Mk TH MU T qW qb kW kb (j 0) (j 1)

/-! ## The two spellings of the scaling and of the sigmoid -/

/-- The kernel's scaling: times the word of 0.125. -/
def scMul (s : EReal) : EReal := s * Ideal.ofBits .f32 0x3E000000#32
/-- The reference's scaling: divided by the word of 8. -/
def scDiv (s : EReal) : EReal := Ideal.div s (Ideal.ofBits .f32 0x41000000#32)
/-- The reference's sigmoid, spelt with the word of 1. -/
def sgDiv (x : EReal) : EReal :=
  Ideal.div (Ideal.ofBits .f32 0x3F800000#32) (Ideal.ofBits .f32 0x3F800000#32 + Ideal.exp (-x))

theorem ofBits_eight : Ideal.ofBits .f32 0x41000000#32 = ((8 : ℝ) : EReal) := by
  simp [Ideal.ofBits, Ideal.ieee, -EReal.coe_mul]; norm_num

theorem ofBits_eighth : Ideal.ofBits .f32 0x3E000000#32 = ((1 / 8 : ℝ) : EReal) := by
  simp [Ideal.ofBits, Ideal.ieee, -EReal.coe_mul]; norm_num

theorem ofBits_one : Ideal.ofBits .f32 0x3F800000#32 = 1 := by
  simp [Ideal.ofBits, Ideal.ieee, -EReal.coe_mul]; norm_num

/-- Dividing by 8 is multiplying by 1/8, on every extended real. -/
theorem scDiv_eq_scMul : scDiv = scMul := by
  funext s
  unfold scDiv scMul
  rw [ofBits_eight, ofBits_eighth, Ideal.div_coe (by norm_num : (8 : ℝ) ≠ 0)]

/-- 1/(1 + e^(−x)) is the logistic function, on every extended real. -/
theorem sgDiv_eq_logistic : sgDiv = Ideal.logistic := by
  funext x
  unfold sgDiv Ideal.logistic
  rw [ofBits_one]

end Cert.AttnPool

end
-- ==== Proof.KProj.lean ====
import proofs.«139031_j43525198578144_1_alg».proof.Proof.Spec
import proofs.«139031_j43525198578144_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Cert.KernelIdeal Cert.KernelIdeal.Gen Cert.AttnPool Idealize.ShloMosaic Idealize.ShloMosaic.ValueIdx

/-! ## The [4096,128] × [128,64] product read at an entry

The product contracts the left operand's axis 1 with the right operand's axis 0. At the output entry (r, c) and the
contraction coordinate q, the left operand is read at (r, q) and the right operand at (q, c): one lemma per axis. -/

/-- Left operand, axis 0: the output's row. -/
theorem lhs_proj_0 (i : S4096x64.Idx) (q : dot_S4096x128_S128x64_S4096x64_1_0_0_1_n_n.contr.Idx) :
    (dot_S4096x128_S128x64_S4096x64_1_0_0_1_n_n.lhsIdx i q 0).val = (i 0).val := by
  unfold DotDims.lhsIdx
  rw [dif_neg (show ¬(0 : Fin S4096x128.rank) ∈ dot_S4096x128_S128x64_S4096x64_1_0_0_1_n_n.lhsBatch by decide), dif_pos (show (0 : Fin S4096x128.rank) ∈ dot_S4096x128_S128x64_S4096x64_1_0_0_1_n_n.lhsNonContracting by decide)]
  rfl
/-- Left operand, axis 1: the contraction coordinate. -/
theorem lhs_proj_1 (i : S4096x64.Idx) (q : dot_S4096x128_S128x64_S4096x64_1_0_0_1_n_n.contr.Idx) :
    (dot_S4096x128_S128x64_S4096x64_1_0_0_1_n_n.lhsIdx i q 1).val = (q ⟨0, by decide⟩).val :=
  dot_S4096x128_S128x64_S4096x64_1_0_0_1_n_n.lhsIdx_val_of_single rfl i q
/-- Right operand, axis 0: the contraction coordinate. -/
theorem rhs_proj_0 (i : S4096x64.Idx) (q : dot_S4096x128_S128x64_S4096x64_1_0_0_1_n_n.contr.Idx) :
    (dot_S4096x128_S128x64_S4096x64_1_0_0_1_n_n.rhsIdx i q 0).val = (q ⟨0, by decide⟩).val :=
  dot_S4096x128_S128x64_S4096x64_1_0_0_1_n_n.rhsIdx_val_of_single rfl i q
/-- Right operand, axis 1: the output's column. -/
theorem rhs_proj_1 (i : S4096x64.Idx) (q : dot_S4096x128_S128x64_S4096x64_1_0_0_1_n_n.contr.Idx) :
    (dot_S4096x128_S128x64_S4096x64_1_0_0_1_n_n.rhsIdx i q 1).val = (i 1).val := by
  unfold DotDims.rhsIdx
  rw [dif_neg (show ¬(1 : Fin S128x64.rank) ∈ dot_S4096x128_S128x64_S4096x64_1_0_0_1_n_n.rhsBatch by decide), dif_pos (show (1 : Fin S128x64.rank) ∈ dot_S4096x128_S128x64_S4096x64_1_0_0_1_n_n.rhsNonContracting by decide)]
  rfl

/-- The product into the zero array, at (r, c): Σ_k lhs[r, k]·rhs[k, c], the contraction's one axis re-indexed by
    its coordinate k < 128. -/
theorem projMatmul_apply (lhs : FVec Ideal S4096x128 .bf16) (rhs : FVec Ideal S128x64 .bf16) (r : Fin 4096) (c : Fin 64) :
    matmul dot_S4096x128_S128x64_S4096x64_1_0_0_1_n_n none lhs rhs (constant S4096x64 .f32 0x00000000#32) (ix2 r c)
      = ∑ k : Fin 128, lhs (ix2 r k) * rhs (ix2 k c) := by
  refine (Ideal.matmul_constant_zero_apply dot_S4096x128_S128x64_S4096x64_1_0_0_1_n_n none lhs rhs (ix2 r c)).trans ?_
  rw [← Equiv.sum_comp (ValueIdx.contrEquiv1 dot_S4096x128_S128x64_S4096x64_1_0_0_1_n_n 128 rfl rfl).symm]
  refine Finset.sum_congr rfl fun k _ => ?_
  have hk := ValueIdx.contrEquiv1_symm_val dot_S4096x128_S128x64_S4096x64_1_0_0_1_n_n 128 rfl rfl k
  have el : dot_S4096x128_S128x64_S4096x64_1_0_0_1_n_n.lhsIdx (ix2 r c) ((ValueIdx.contrEquiv1 dot_S4096x128_S128x64_S4096x64_1_0_0_1_n_n 128 rfl rfl).symm k) = ix2 r k := funext fun a => Fin.ext (by
    match a with
    | ⟨0, _⟩ => exact lhs_proj_0 _ _
    | ⟨1, _⟩ => exact (lhs_proj_1 _ _).trans hk)
  have er : dot_S4096x128_S128x64_S4096x64_1_0_0_1_n_n.rhsIdx (ix2 r c) ((ValueIdx.contrEquiv1 dot_S4096x128_S128x64_S4096x64_1_0_0_1_n_n 128 rfl rfl).symm k) = ix2 k c := funext fun a => Fin.ext (by
    match a with
    | ⟨0, _⟩ => exact (rhs_proj_0 _ _).trans hk
    | ⟨1, _⟩ => exact rhs_proj_1 _ _)
  rw [el, er]

/-! ## The blocks that pass through -/

/-- The mask, θ, μ and time blocks pass through a cast to their own shape. -/
theorem pay2_eq (v : Vec Ideal S128x32 .f32) : k0_pay2 (F := Ideal) v = v := by
  unfold k0_pay2
  exact shapeCast_self v _
theorem pay3_eq (v : Vec Ideal S128x32 .f32) : k0_pay3 (F := Ideal) v = v := by
  unfold k0_pay3
  exact shapeCast_self v _
theorem pay4_eq (v : Vec Ideal S128x32 .f32) : k0_pay4 (F := Ideal) v = v := by
  unfold k0_pay4
  exact shapeCast_self v _
theorem pay5_eq (v : Vec Ideal S128x1 .f32) : k0_pay5 (F := Ideal) v = v := by
  unfold k0_pay5
  exact shapeCast_self v _

/-- The embedding block, narrowed in format only: the same extended reals. -/
theorem pay6_apply (v0 : Vec Ideal S128x32x128 .f32) (p : Fin 128) (n : Fin 32) (k : Fin 128) :
    k0_pay6 (F := Ideal) v0 (ix3 p n k) = v0 (ix3 p n k) := by
  unfold k0_pay6
  -- a narrowing of the format is the identity on the extended reals; the cast is to the same shape
  exact congrFun (shapeCast_self v0 _) (ix3 p n k)

/-! ## The affine images -/

/-- The row 32·p + n of the flattened [4096, ·] arrays. -/
abbrev projRow (p : Fin 128) (n : Fin 32) : Fin 4096 := ⟨p.val * 32 + n.val, by have := p.isLt; have := n.isLt; omega⟩

/-- The embedding block flattened to [4096,128]: row 32·p + n, column k reads (p, n, k). -/
theorem pay7_apply (v0 : Vec Ideal S128x32x128 .f32) (p : Fin 128) (n : Fin 32) (k : Fin 128) :
    k0_pay7 (F := Ideal) v0 (ix2 (projRow p n) k) = v0 (ix3 p n k) := by
  unfold k0_pay7
  refine (shapeCast_apply (k0_pay6 (F := Ideal) v0) shapeCasts_S128x32x128_S4096x128 (ix2 (projRow p n) k) (ix3 p n k) ?_).trans (pay6_apply v0 p n k)
  -- both row-major positions are (32·p + n)·128 + k
  rw [Shape.rowMajor_val_three, Shape.rowMajor_val_two]
  show (p.val * 32 + n.val) * 128 + k.val = (p.val * 32 + n.val) * 128 + k.val
  rfl

/-- The affine image computed on the flattened rows: the [4096,128] embeddings times the transposed [64,128] weights,
    plus the [1,64] bias on every row, folded back to [128,32,64]. Entry (p, n, h) is
    Σ_k x[p, n, k]·W[h, k] + bias[h]. -/
theorem projAffine_apply (v0 : Vec Ideal S128x32x128 .f32) (w : Vec Ideal S64x128 .f32) (bs : Vec Ideal S1x64 .f32)
    (p : Fin 128) (n : Fin 32) (h : Fin 64) :
    shapeCast S128x32x64
        (addf
          (matmul dot_S4096x128_S128x64_S4096x64_1_0_0_1_n_n none (k0_pay7 (F := Ideal) v0)
            (transpose S128x64 [1, 0] (truncf .bf16 w bitsLt_bf16_f32 : FVec Ideal S64x128 .bf16) transposes_S64x128_p1_0_S128x64)
            (constant S4096x64 .f32 0x00000000#32))
          (broadcastTo S4096x64 (shapeCast S1x64 bs shapeCasts_S1x64_S1x64) broadcasts_S1x64_S4096x64))
        shapeCasts_S4096x64_S128x32x64 (ix3 p n h)
      = proj (fun n k => v0 (ix3 p n k)) (fun h k => w (ix2 h k)) (fun h => bs (ix2 (0 : Fin 1) h)) n h := by
  -- the fold back to [128,32,64] reads row 32·p + n, column h
  refine (shapeCast_apply _ shapeCasts_S4096x64_S128x32x64 (ix3 p n h) (ix2 (projRow p n) h) ?_).trans ?_
  · -- both row-major positions are (32·p + n)·64 + h
    rw [Shape.rowMajor_val_three, Shape.rowMajor_val_two]
    show (p.val * 32 + n.val) * 64 + h.val = (p.val * 32 + n.val) * 64 + h.val
    rfl
  -- the sum is pointwise; the product is the sum over k; the bias row is read at (0, h)
  refine (addf_apply _ _ _).trans ?_
  unfold proj
  refine congrArg₂ (· + ·) ?_ ?_
  · refine (projMatmul_apply _ _ (projRow p n) h).trans ?_
    refine Finset.sum_congr rfl fun k _ => ?_
    refine congrArg₂ (· * ·) (pay7_apply v0 p n k) ?_
    -- the transposed weights at (k, h) read the weights at (h, k); the narrowing is the identity
    exact transpose_ix2_apply _ transposes_S64x128_p1_0_S128x64 k h
  · refine (broadcastTo_1b_ab_apply _ broadcasts_S1x64_S4096x64 (projRow p n) h).trans ?_
    exact congrFun (shapeCast_self bs _) _

/-- The query block at (p, n, h): the affine image of row p's embeddings. -/
theorem pay8_apply (v0 : Vec Ideal S128x32x128 .f32) (v12 : Vec Ideal S64x128 .f32) (v16 : Vec Ideal S1x64 .f32)
    (p : Fin 128) (n : Fin 32) (h : Fin 64) :
    k0_pay8 (F := Ideal) v0 v12 v16 (ix3 p n h)
      = proj (fun n k => v0 (ix3 p n k)) (fun h k => v12 (ix2 h k)) (fun h => v16 (ix2 (0 : Fin 1) h)) n h := by
  unfold k0_pay8
  exact projAffine_apply v0 v12 v16 p n h

/-- The key block at (p, n, h), likewise. -/
theorem pay9_apply (v0 : Vec Ideal S128x32x128 .f32) (v14 : Vec Ideal S64x128 .f32) (v18 : Vec Ideal S1x64 .f32)
    (p : Fin 128) (n : Fin 32) (h : Fin 64) :
    k0_pay9 (F := Ideal) v0 v14 v18 (ix3 p n h)
      = proj (fun n k => v0 (ix3 p n k)) (fun h k => v14 (ix2 h k)) (fun h => v18 (ix2 (0 : Fin 1) h)) n h := by
  unfold k0_pay9
  exact projAffine_apply v0 v14 v18 p n h

/-- The mask fill at (p, n). -/
theorem pay10_apply (v2 : Vec Ideal S128x32 .f32) (p : Fin 128) (n : Fin 32) :
    k0_pay10 (F := Ideal) v2 (ix2 p n) = fill (v2 (ix2 p n)) := by
  unfold k0_pay10
  rw [pay2_eq]
  -- the comparison with one half and the choice between 0 and −10⁹ are pointwise
  rfl

end Cert.KernelIdeal.Block

end
-- ==== Proof.KPool.lean ====
import proofs.«139031_j43525198578144_1_alg».proof.Proof.Spec
import proofs.«139031_j43525198578144_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Cert.KernelIdeal Cert.KernelIdeal.Gen Cert.AttnPool Idealize.ShloMosaic Idealize.ShloMosaic.ValueIdx

/-! ## Layout operations read at an index

A cast that adds a unit axis keeps the row-major position, so it reads the operand at the remaining coordinates; a
broadcast along a unit axis reads the operand at coordinate 0 of that axis. -/

section Layout
variable {α : Type}

/-- [128, 32] cast to [128, 32, 1], read at (p, n, z): the operand at (p, n), since (p·32 + n)·1 + z = p·32 + n for z < 1. -/
theorem pool_cast_col_apply (v : S128x32.Idx → α) (h : S128x32.ShapeCasts S128x32x1) (p : Fin 128) (n : Fin 32) (z : Fin 1) :
    shapeCast S128x32x1 v h (ix3 p n z) = v (ix2 p n) :=
  shapeCast_apply v h _ _ (by
    rw [Shape.rowMajor_val_two, Shape.rowMajor_val_three]
    show p.val * 32 + n.val = (p.val * 32 + n.val) * 1 + z.val
    have := z.isLt
    omega)

/-- [128, 32] cast to [128, 1, 32], read at (p, z, m): the operand at (p, m), since (p·1 + z)·32 + m = p·32 + m for z < 1. -/
theorem pool_cast_row_apply (v : S128x32.Idx → α) (h : S128x32.ShapeCasts S128x1x32) (p : Fin 128) (z : Fin 1) (m : Fin 32) :
    shapeCast S128x1x32 v h (ix3 p z m) = v (ix2 p m) :=
  shapeCast_apply v h _ _ (by
    rw [Shape.rowMajor_val_two, Shape.rowMajor_val_three]
    show p.val * 32 + m.val = (p.val * 1 + z.val) * 32 + m.val
    have := z.isLt
    omega)

/-- [128, 32, 1] broadcast to [128, 32, 32], read at (p, n, m): the operand at (p, n, 0). -/
theorem pool_bcast_col_apply (x : S128x32x1.Idx → α) (h : S128x32x1.Broadcasts S128x32x32) (p : Fin 128) (n m : Fin 32) :
    broadcastTo S128x32x32 x h (ix3 p n m) = x (ix3 p n (0 : Fin 1)) :=
  broadcastTo_apply x h _ _ fun a => match a with
    | ⟨0, _⟩ => rfl
    | ⟨1, _⟩ => rfl
    | ⟨2, _⟩ => rfl

/-- [128, 1, 32] broadcast to [128, 32, 32], read at (p, n, m): the operand at (p, 0, m). -/
theorem pool_bcast_row_apply (x : S128x1x32.Idx → α) (h : S128x1x32.Broadcasts S128x32x32) (p : Fin 128) (n m : Fin 32) :
    broadcastTo S128x32x32 x h (ix3 p n m) = x (ix3 p (0 : Fin 1) m) :=
  broadcastTo_apply x h _ _ fun a => match a with
    | ⟨0, _⟩ => rfl
    | ⟨1, _⟩ => rfl
    | ⟨2, _⟩ => rfl

/-- [128, 32, 1] broadcast to [128, 32, 128], read at (p, n, d): the operand at (p, n, 0). -/
theorem pool_bcast_col128_apply (x : S128x32x1.Idx → α) (h : S128x32x1.Broadcasts S128x32x128) (p : Fin 128) (n : Fin 32) (d : Fin 128) :
    broadcastTo S128x32x128 x h (ix3 p n d) = x (ix3 p n (0 : Fin 1)) :=
  broadcastTo_apply x h _ _ fun a => match a with
    | ⟨0, _⟩ => rfl
    | ⟨1, _⟩ => rfl
    | ⟨2, _⟩ => rfl

/-- [128, 1] broadcast to [128, 32], read at (p, n): the operand at (p, 0). -/
theorem pool_bcast_time_apply (x : S128x1.Idx → α) (h : S128x1.Broadcasts S128x32) (p : Fin 128) (n : Fin 32) :
    broadcastTo S128x32 x h (ix2 p n) = x (ix2 p (0 : Fin 1)) :=
  broadcastTo_apply x h _ _ fun a => match a with
    | ⟨0, _⟩ => rfl
    | ⟨1, _⟩ => rfl

end Layout

/-! ## Reductions over one axis read at an index

A reduction over one axis is the sum (or the fold of max from the accumulator's value) over that axis's coordinates of
the source at the reduced index with the coordinate inserted; at these literal axes the inserted index is (p, n, m),
respectively (p, n, d), coordinate by coordinate. -/

section Reduce

/-- The max-reduction of [128, 32, 32] over the last axis, read at (p, n): the fold of max from the word of −∞ over m of the source at (p, n, m). -/
theorem pool_rowmax_apply (src : FVec Ideal S128x32x32 .f32) (p : Fin 128) (n : Fin 32) :
    multiReduction .maximumf [2] S128x32 src 0xFF800000#32 reduces_S128x32x32_S128x32 (.inl rfl) rfl (ix2 p n)
      = (Finset.univ : Finset (Fin 32)).fold max (Ideal.ofBits .f32 0xFF800000#32) (fun m => src (ix3 p n m)) := by
  refine (Ideal.multiReduction_maximumf_single src 0xFF800000#32 reduces_S128x32x32_S128x32 (.inl rfl) rfl (ix2 p n)).trans ?_
  refine congrArg (fun f => (Finset.univ : Finset (Fin 32)).fold max (Ideal.ofBits .f32 0xFF800000#32) f) ?_
  funext m
  refine congrArg src ?_
  funext a
  match a with
  | ⟨0, _⟩ => rfl
  | ⟨1, _⟩ => rfl
  | ⟨2, _⟩ => rfl

/-- The add-reduction of [128, 32, 32] over the last axis, read at (p, n): Σ_m of the source at (p, n, m). -/
theorem pool_rowsum_apply (src : FVec Ideal S128x32x32 .f32) (p : Fin 128) (n : Fin 32) :
    multiReduction .add [2] S128x32 src 0x00000000#32 reduces_S128x32x32_S128x32 (.inl rfl) rfl (ix2 p n)
      = ∑ m : Fin 32, src (ix3 p n m) := by
  refine (Ideal.multiReduction_add_single src 0x00000000#32 reduces_S128x32x32_S128x32 (.inl rfl) rfl (ix2 p n)).trans ?_
  refine Finset.sum_congr rfl fun m _ => ?_
  refine congrArg src ?_
  funext a
  match a with
  | ⟨0, _⟩ => rfl
  | ⟨1, _⟩ => rfl
  | ⟨2, _⟩ => rfl

/-- The add-reduction of [128, 32, 128] over the middle axis, read at (p, d): Σ_n of the source at (p, n, d). -/
theorem pool_colsum_apply (src : FVec Ideal S128x32x128 .f32) (p : Fin 128) (d : Fin 128) :
    multiReduction .add [1] S128x128 src 0x00000000#32 reduces_S128x32x128_S128x128 (.inl rfl) rfl (ix2 p d)
      = ∑ n : Fin 32, src (ix3 p n d) := by
  refine (Ideal.multiReduction_add_single src 0x00000000#32 reduces_S128x32x128_S128x128 (.inl rfl) rfl (ix2 p d)).trans ?_
  refine Finset.sum_congr rfl fun n _ => ?_
  refine congrArg src ?_
  funext a
  match a with
  | ⟨0, _⟩ => rfl
  | ⟨1, _⟩ => rfl
  | ⟨2, _⟩ => rfl

end Reduce

/-! ## The two batched products read at an index

Into the zero accumulator a product at an output index is the sum over the contraction index of the operands' products.
Both dimension numbers contract one axis, so the contraction index is its one coordinate; the operand indices are read
axis by axis: the batch axis carries the output's axis 0, the free axis the output's axis 1 (left) or 2 (right), the
contracted axis the contraction coordinate. -/

section Products

/-! 'bnh,bmh->bnm': the left operand is read at (b, n, h), the right at (b, m, h). -/

theorem pool_qk_lhs_0 (i : S128x32x32.Idx) (q : dot_S128x32x64_S128x32x64_S128x32x32_2_2_1_1_0_0.contr.Idx) :
    (dot_S128x32x64_S128x32x64_S128x32x32_2_2_1_1_0_0.lhsIdx i q 0).val = (i 0).val := by
  unfold DotDims.lhsIdx
  rw [dif_pos (show (0 : Fin S128x32x64.rank) ∈ dot_S128x32x64_S128x32x64_S128x32x32_2_2_1_1_0_0.lhsBatch by decide)]
  rfl
theorem pool_qk_lhs_1 (i : S128x32x32.Idx) (q : dot_S128x32x64_S128x32x64_S128x32x32_2_2_1_1_0_0.contr.Idx) :
    (dot_S128x32x64_S128x32x64_S128x32x32_2_2_1_1_0_0.lhsIdx i q 1).val = (i 1).val := by
  unfold DotDims.lhsIdx
  rw [dif_neg (show ¬(1 : Fin S128x32x64.rank) ∈ dot_S128x32x64_S128x32x64_S128x32x32_2_2_1_1_0_0.lhsBatch by decide), dif_pos (show (1 : Fin S128x32x64.rank) ∈ dot_S128x32x64_S128x32x64_S128x32x32_2_2_1_1_0_0.lhsNonContracting by decide)]
  rfl
theorem pool_qk_lhs_2 (i : S128x32x32.Idx) (q : dot_S128x32x64_S128x32x64_S128x32x32_2_2_1_1_0_0.contr.Idx) :
    (dot_S128x32x64_S128x32x64_S128x32x32_2_2_1_1_0_0.lhsIdx i q 2).val = (q ⟨0, by decide⟩).val :=
  dot_S128x32x64_S128x32x64_S128x32x32_2_2_1_1_0_0.lhsIdx_val_of_single rfl i q
theorem pool_qk_rhs_0 (i : S128x32x32.Idx) (q : dot_S128x32x64_S128x32x64_S128x32x32_2_2_1_1_0_0.contr.Idx) :
    (dot_S128x32x64_S128x32x64_S128x32x32_2_2_1_1_0_0.rhsIdx i q 0).val = (i 0).val := by
  unfold DotDims.rhsIdx
  rw [dif_pos (show (0 : Fin S128x32x64.rank) ∈ dot_S128x32x64_S128x32x64_S128x32x32_2_2_1_1_0_0.rhsBatch by decide)]
  rfl
theorem pool_qk_rhs_1 (i : S128x32x32.Idx) (q : dot_S128x32x64_S128x32x64_S128x32x32_2_2_1_1_0_0.contr.Idx) :
    (dot_S128x32x64_S128x32x64_S128x32x32_2_2_1_1_0_0.rhsIdx i q 1).val = (i 2).val := by
  unfold DotDims.rhsIdx
  rw [dif_neg (show ¬(1 : Fin S128x32x64.rank) ∈ dot_S128x32x64_S128x32x64_S128x32x32_2_2_1_1_0_0.rhsBatch by decide), dif_pos (show (1 : Fin S128x32x64.rank) ∈ dot_S128x32x64_S128x32x64_S128x32x32_2_2_1_1_0_0.rhsNonContracting by decide)]
  rfl
theorem pool_qk_rhs_2 (i : S128x32x32.Idx) (q : dot_S128x32x64_S128x32x64_S128x32x32_2_2_1_1_0_0.contr.Idx) :
    (dot_S128x32x64_S128x32x64_S128x32x32_2_2_1_1_0_0.rhsIdx i q 2).val = (q ⟨0, by decide⟩).val :=
  dot_S128x32x64_S128x32x64_S128x32x32_2_2_1_1_0_0.rhsIdx_val_of_single rfl i q

/-- The product 'bnh,bmh->bnm' into zero, read at (p, n, m): Σ_h l(p, n, h)·r(p, m, h). -/
theorem pool_qk_apply {φ₁ φ₂ : FTy} (l : FVec Ideal S128x32x64 φ₁) (r : FVec Ideal S128x32x64 φ₂) (p : Fin 128) (n m : Fin 32) :
    matmul dot_S128x32x64_S128x32x64_S128x32x32_2_2_1_1_0_0 none l r (constant S128x32x32 .f32 0x00000000#32) (ix3 p n m)
      = ∑ h : Fin 64, l (ix3 p n h) * r (ix3 p m h) := by
  refine (Ideal.matmul_constant_zero_apply dot_S128x32x64_S128x32x64_S128x32x32_2_2_1_1_0_0 none l r (ix3 p n m)).trans ?_
  rw [← Equiv.sum_comp (contrEquiv1 dot_S128x32x64_S128x32x64_S128x32x32_2_2_1_1_0_0 64 rfl rfl).symm]
  refine Finset.sum_congr rfl fun k _ => ?_
  have hk := contrEquiv1_symm_val dot_S128x32x64_S128x32x64_S128x32x32_2_2_1_1_0_0 64 rfl rfl k
  have el : dot_S128x32x64_S128x32x64_S128x32x32_2_2_1_1_0_0.lhsIdx (ix3 p n m) ((contrEquiv1 dot_S128x32x64_S128x32x64_S128x32x32_2_2_1_1_0_0 64 rfl rfl).symm k) = ix3 p n k := funext fun a => Fin.ext (by
    match a with
    | ⟨0, _⟩ => exact pool_qk_lhs_0 _ _
    | ⟨1, _⟩ => exact pool_qk_lhs_1 _ _
    | ⟨2, _⟩ => exact (pool_qk_lhs_2 _ _).trans hk)
  have er : dot_S128x32x64_S128x32x64_S128x32x32_2_2_1_1_0_0.rhsIdx (ix3 p n m) ((contrEquiv1 dot_S128x32x64_S128x32x64_S128x32x32_2_2_1_1_0_0 64 rfl rfl).symm k) = ix3 p m k := funext fun a => Fin.ext (by
    match a with
    | ⟨0, _⟩ => exact pool_qk_rhs_0 _ _
    | ⟨1, _⟩ => exact pool_qk_rhs_1 _ _
    | ⟨2, _⟩ => exact (pool_qk_rhs_2 _ _).trans hk)
  rw [el, er]

/-! 'bnm,bmd->bnd': the left operand is read at (b, n, m), the right at (b, m, d). -/

theorem pool_ax_lhs_0 (i : S128x32x128.Idx) (q : dot_S128x32x32_S128x32x128_S128x32x128_2_1_1_2_0_0.contr.Idx) :
    (dot_S128x32x32_S128x32x128_S128x32x128_2_1_1_2_0_0.lhsIdx i q 0).val = (i 0).val := by
  unfold DotDims.lhsIdx
  rw [dif_pos (show (0 : Fin S128x32x32.rank) ∈ dot_S128x32x32_S128x32x128_S128x32x128_2_1_1_2_0_0.lhsBatch by decide)]
  rfl
theorem pool_ax_lhs_1 (i : S128x32x128.Idx) (q : dot_S128x32x32_S128x32x128_S128x32x128_2_1_1_2_0_0.contr.Idx) :
    (dot_S128x32x32_S128x32x128_S128x32x128_2_1_1_2_0_0.lhsIdx i q 1).val = (i 1).val := by
  unfold DotDims.lhsIdx
  rw [dif_neg (show ¬(1 : Fin S128x32x32.rank) ∈ dot_S128x32x32_S128x32x128_S128x32x128_2_1_1_2_0_0.lhsBatch by decide), dif_pos (show (1 : Fin S128x32x32.rank) ∈ dot_S128x32x32_S128x32x128_S128x32x128_2_1_1_2_0_0.lhsNonContracting by decide)]
  rfl
theorem pool_ax_lhs_2 (i : S128x32x128.Idx) (q : dot_S128x32x32_S128x32x128_S128x32x128_2_1_1_2_0_0.contr.Idx) :
    (dot_S128x32x32_S128x32x128_S128x32x128_2_1_1_2_0_0.lhsIdx i q 2).val = (q ⟨0, by decide⟩).val :=
  dot_S128x32x32_S128x32x128_S128x32x128_2_1_1_2_0_0.lhsIdx_val_of_single rfl i q
theorem pool_ax_rhs_0 (i : S128x32x128.Idx) (q : dot_S128x32x32_S128x32x128_S128x32x128_2_1_1_2_0_0.contr.Idx) :
    (dot_S128x32x32_S128x32x128_S128x32x128_2_1_1_2_0_0.rhsIdx i q 0).val = (i 0).val := by
  unfold DotDims.rhsIdx
  rw [dif_pos (show (0 : Fin S128x32x128.rank) ∈ dot_S128x32x32_S128x32x128_S128x32x128_2_1_1_2_0_0.rhsBatch by decide)]
  rfl
theorem pool_ax_rhs_1 (i : S128x32x128.Idx) (q : dot_S128x32x32_S128x32x128_S128x32x128_2_1_1_2_0_0.contr.Idx) :
    (dot_S128x32x32_S128x32x128_S128x32x128_2_1_1_2_0_0.rhsIdx i q 1).val = (q ⟨0, by decide⟩).val :=
  dot_S128x32x32_S128x32x128_S128x32x128_2_1_1_2_0_0.rhsIdx_val_of_single rfl i q
theorem pool_ax_rhs_2 (i : S128x32x128.Idx) (q : dot_S128x32x32_S128x32x128_S128x32x128_2_1_1_2_0_0.contr.Idx) :
    (dot_S128x32x32_S128x32x128_S128x32x128_2_1_1_2_0_0.rhsIdx i q 2).val = (i 2).val := by
  unfold DotDims.rhsIdx
  rw [dif_neg (show ¬(2 : Fin S128x32x128.rank) ∈ dot_S128x32x32_S128x32x128_S128x32x128_2_1_1_2_0_0.rhsBatch by decide), dif_pos (show (2 : Fin S128x32x128.rank) ∈ dot_S128x32x32_S128x32x128_S128x32x128_2_1_1_2_0_0.rhsNonContracting by decide)]
  rfl

/-- The product 'bnm,bmd->bnd' into zero, read at (p, n, d): Σ_m l(p, n, m)·r(p, m, d). -/
theorem pool_ax_apply {φ₁ φ₂ : FTy} (l : FVec Ideal S128x32x32 φ₁) (r : FVec Ideal S128x32x128 φ₂) (p : Fin 128) (n : Fin 32) (d : Fin 128) :
    matmul dot_S128x32x32_S128x32x128_S128x32x128_2_1_1_2_0_0 none l r (constant S128x32x128 .f32 0x00000000#32) (ix3 p n d)
      = ∑ m : Fin 32, l (ix3 p n m) * r (ix3 p m d) := by
  refine (Ideal.matmul_constant_zero_apply dot_S128x32x32_S128x32x128_S128x32x128_2_1_1_2_0_0 none l r (ix3 p n d)).trans ?_
  rw [← Equiv.sum_comp (contrEquiv1 dot_S128x32x32_S128x32x128_S128x32x128_2_1_1_2_0_0 32 rfl rfl).symm]
  refine Finset.sum_congr rfl fun k _ => ?_
  have hk := contrEquiv1_symm_val dot_S128x32x32_S128x32x128_S128x32x128_2_1_1_2_0_0 32 rfl rfl k
  have el : dot_S128x32x32_S128x32x128_S128x32x128_2_1_1_2_0_0.lhsIdx (ix3 p n d) ((contrEquiv1 dot_S128x32x32_S128x32x128_S128x32x128_2_1_1_2_0_0 32 rfl rfl).symm k) = ix3 p n k := funext fun a => Fin.ext (by
    match a with
    | ⟨0, _⟩ => exact pool_ax_lhs_0 _ _
    | ⟨1, _⟩ => exact pool_ax_lhs_1 _ _
    | ⟨2, _⟩ => exact (pool_ax_lhs_2 _ _).trans hk)
  have er : dot_S128x32x32_S128x32x128_S128x32x128_2_1_1_2_0_0.rhsIdx (ix3 p n d) ((contrEquiv1 dot_S128x32x32_S128x32x128_S128x32x128_2_1_1_2_0_0 32 rfl rfl).symm k) = ix3 p k d := funext fun a => Fin.ext (by
    match a with
    | ⟨0, _⟩ => exact pool_ax_rhs_0 _ _
    | ⟨1, _⟩ => exact (pool_ax_rhs_1 _ _).trans hk
    | ⟨2, _⟩ => exact pool_ax_rhs_2 _ _)
  rw [el, er]

end Products

/-! ## The body's intermediate blocks, each read at an index

The narrowing format changes are the identity on extended reals and every elementwise operation reads through at an
index, so each block below is the specification's function of the same name at row p once its layout operations,
reductions and products are read by the lemmas above. -/

section Blocks

/-- The logits block [128, 32, 32]: the batched product of the queries and keys times the word of 1/8, plus the
    outer product of the fills. -/
def poolLogits (v28 v29 : FVec Ideal S128x32x64 .f32) (v34 : FVec Ideal S128x32 .f32) : FVec Ideal S128x32x32 .f32 :=
  addf
    (mulf
      (matmul dot_S128x32x64_S128x32x64_S128x32x32_2_2_1_1_0_0 none (truncf .bf16 v28 bitsLt_bf16_f32) (truncf .bf16 v29 bitsLt_bf16_f32)
        (constant S128x32x32 .f32 0x00000000#32))
      (broadcast S128x32x32 (Scalar.ofBits .f32 0x3E000000#32)))
    (mulf
      (broadcastTo S128x32x32 (shapeCast S128x32x1 v34 shapeCasts_S128x32_S128x32x1) broadcasts_S128x32x1_S128x32x32)
      (broadcastTo S128x32x32 (shapeCast S128x1x32 v34 shapeCasts_S128x32_S128x1x32) broadcasts_S128x1x32_S128x32x32))

/-- The logits block at (p, n, m) is the logit between concepts n and m of row p: the product lemma, the two unit-axis
    casts and broadcasts of the fills, and multiplication by the word of 1/8 as the scaling. -/
theorem poolLogits_apply (v28 v29 : FVec Ideal S128x32x64 .f32) (v34 : FVec Ideal S128x32 .f32) (p : Fin 128) (n m : Fin 32) :
    poolLogits v28 v29 v34 (ix3 p n m)
      = score scMul (fun n h => v28 (ix3 p n h)) (fun m h => v29 (ix3 p m h)) (fun n => v34 (ix2 p n)) n m := by
  unfold poolLogits score scMul
  show matmul dot_S128x32x64_S128x32x64_S128x32x32_2_2_1_1_0_0 none (truncf .bf16 v28 bitsLt_bf16_f32) (truncf .bf16 v29 bitsLt_bf16_f32)
        (constant S128x32x32 .f32 0x00000000#32) (ix3 p n m) * Ideal.ofBits .f32 0x3E000000#32
      + broadcastTo S128x32x32 (shapeCast S128x32x1 v34 shapeCasts_S128x32_S128x32x1) broadcasts_S128x32x1_S128x32x32 (ix3 p n m)
        * broadcastTo S128x32x32 (shapeCast S128x1x32 v34 shapeCasts_S128x32_S128x1x32) broadcasts_S128x1x32_S128x32x32 (ix3 p n m)
      = _
  rw [pool_qk_apply, pool_bcast_col_apply, pool_bcast_row_apply, pool_cast_col_apply, pool_cast_row_apply]
  rfl

/-- The row maxima [128, 32] of a logits block: the reduction by max over the last axis from the word of −∞,
    compared with that word once more. -/
def poolShift (s : FVec Ideal S128x32x32 .f32) : FVec Ideal S128x32 .f32 :=
  maximumf (broadcast S128x32 (Scalar.ofBits .f32 0xFF800000#32))
    (multiReduction .maximumf [2] S128x32 s 0xFF800000#32 reduces_S128x32x32_S128x32 (.inl rfl) rfl)

/-- The row maxima at (p, n) are the row maximum of row p's logits at n: the max-reduction lemma, then max with the word of −∞. -/
theorem poolShift_apply (s : FVec Ideal S128x32x32 .f32) (p : Fin 128) (n : Fin 32) :
    poolShift s (ix2 p n) = rowMax (fun n m => s (ix3 p n m)) n := by
  unfold poolShift rowMax
  show max (Ideal.ofBits .f32 0xFF800000#32)
      (multiReduction .maximumf [2] S128x32 s 0xFF800000#32 reduces_S128x32x32_S128x32 (.inl rfl) rfl (ix2 p n)) = _
  rw [pool_rowmax_apply]

/-- The shifted exponentials [128, 32, 32]. -/
def poolExp (s : FVec Ideal S128x32x32 .f32) : FVec Ideal S128x32x32 .f32 :=
  exp (subf s
    (broadcastTo S128x32x32 (shapeCast S128x32x1 (poolShift s) shapeCasts_S128x32_S128x32x1) broadcasts_S128x32x1_S128x32x32))

/-- The shifted exponentials at (p, n, m): the row maximum is read back through the unit-axis cast and broadcast at (p, n). -/
theorem poolExp_apply (s : FVec Ideal S128x32x32 .f32) (p : Fin 128) (n m : Fin 32) :
    poolExp s (ix3 p n m) = expd (fun n m => s (ix3 p n m)) n m := by
  unfold poolExp expd
  show Ideal.exp (s (ix3 p n m)
      - broadcastTo S128x32x32 (shapeCast S128x32x1 (poolShift s) shapeCasts_S128x32_S128x32x1) broadcasts_S128x32x1_S128x32x32 (ix3 p n m)) = _
  rw [pool_bcast_col_apply, pool_cast_col_apply, poolShift_apply]

/-- The attention weights [128, 32, 32]: each shifted exponential over its row's sum. -/
def poolAttn (s : FVec Ideal S128x32x32 .f32) : FVec Ideal S128x32x32 .f32 :=
  divf (poolExp s)
    (broadcastTo S128x32x32
      (shapeCast S128x32x1
        (multiReduction .add [2] S128x32 (poolExp s) 0x00000000#32 reduces_S128x32x32_S128x32 (.inl rfl) rfl)
        shapeCasts_S128x32_S128x32x1)
      broadcasts_S128x32x1_S128x32x32)

/-- The attention weights at (p, n, m): the row sum is the add-reduction lemma, read back through the unit-axis cast and
    broadcast at (p, n), and each summand is a shifted exponential. -/
theorem poolAttn_apply (s : FVec Ideal S128x32x32 .f32) (p : Fin 128) (n m : Fin 32) :
    poolAttn s (ix3 p n m) = attn (fun n m => s (ix3 p n m)) n m := by
  unfold poolAttn attn
  show Ideal.div (poolExp s (ix3 p n m))
      (broadcastTo S128x32x32
        (shapeCast S128x32x1
          (multiReduction .add [2] S128x32 (poolExp s) 0x00000000#32 reduces_S128x32x32_S128x32 (.inl rfl) rfl)
          shapeCasts_S128x32_S128x32x1)
        broadcasts_S128x32x1_S128x32x32 (ix3 p n m)) = _
  rw [pool_bcast_col_apply, pool_cast_col_apply, pool_rowsum_apply, poolExp_apply]
  exact congrArg (Ideal.div _) (Finset.sum_congr rfl fun m' _ => poolExp_apply s p n m')

/-- The pooling weights [128, 32]: the logistic function of θ − μ·t, times the mask. -/
def poolWeight (v3 v5 v7 : FVec Ideal S128x32 .f32) (v9 : FVec Ideal S128x1 .f32) : FVec Ideal S128x32 .f32 :=
  mulf (logistic (subf v5 (mulf v7 (broadcastTo S128x32 v9 broadcasts_S128x1_S128x32)))) v3

/-- The pooling weights at (p, n): the time stamp is read through its broadcast at (p, 0). -/
theorem poolWeight_apply (v3 v5 v7 : FVec Ideal S128x32 .f32) (v9 : FVec Ideal S128x1 .f32) (p : Fin 128) (n : Fin 32) :
    poolWeight v3 v5 v7 v9 (ix2 p n)
      = weight Ideal.logistic (fun n => v3 (ix2 p n)) (fun n => v5 (ix2 p n)) (fun n => v7 (ix2 p n)) (v9 (ix2 p (0 : Fin 1))) n := by
  unfold poolWeight weight
  show Ideal.logistic (v5 (ix2 p n) - v7 (ix2 p n) * broadcastTo S128x32 v9 broadcasts_S128x1_S128x32 (ix2 p n)) * v3 (ix2 p n) = _
  rw [pool_bcast_time_apply]

end Blocks

/-- The payload is the add-reduction over the concepts of (attention weights · embeddings) times the broadcast pooling
    weights, with the blocks above substituted: definitional. -/
theorem pay1_eq_blocks (v3 v5 v7 : FVec Ideal S128x32 .f32) (v9 : FVec Ideal S128x1 .f32) (v10 : FVec Ideal S128x32x128 .bf16)
    (v28 v29 : FVec Ideal S128x32x64 .f32) (v34 : FVec Ideal S128x32 .f32) :
    k0_pay1 (F := Ideal) v3 v5 v7 v9 v10 v28 v29 v34
      = multiReduction .add [1] S128x128
          (mulf
            (matmul dot_S128x32x32_S128x32x128_S128x32x128_2_1_1_2_0_0 none (truncf .bf16 (poolAttn (poolLogits v28 v29 v34)) bitsLt_bf16_f32) v10
              (constant S128x32x128 .f32 0x00000000#32))
            (broadcastTo S128x32x128 (shapeCast S128x32x1 (poolWeight v3 v5 v7 v9) shapeCasts_S128x32_S128x32x1)
              broadcasts_S128x32x1_S128x32x128))
          0x00000000#32 reduces_S128x32x128_S128x128 (.inl rfl) rfl := rfl

/-- The pooled block at (p, d), from the mask, θ, μ, time, embedding, query, key and fill blocks: row p's pooled
    vector, with the logits scaled by the word of 1/8 and the logistic function as the sigmoid. -/
theorem pay1_apply (v3 v5 v7 : FVec Ideal S128x32 .f32) (v9 : FVec Ideal S128x1 .f32) (v10 : FVec Ideal S128x32x128 .bf16)
    (v28 v29 : FVec Ideal S128x32x64 .f32) (v34 : FVec Ideal S128x32 .f32) (p : Fin 128) (d : Fin 128) :
    k0_pay1 (F := Ideal) v3 v5 v7 v9 v10 v28 v29 v34 (ix2 p d)
      = poolRow scMul Ideal.logistic (fun n k => v10 (ix3 p n k)) (fun n h => v28 (ix3 p n h)) (fun m h => v29 (ix3 p m h))
          (fun n => v34 (ix2 p n)) (fun n => v3 (ix2 p n)) (fun n => v5 (ix2 p n)) (fun n => v7 (ix2 p n))
          (v9 (ix2 p (0 : Fin 1))) d := by
  -- the sum over the concepts n of the product block at (p, n, d)
  rw [pay1_eq_blocks, pool_colsum_apply]
  unfold poolRow
  refine Finset.sum_congr rfl fun n _ => ?_
  show matmul dot_S128x32x32_S128x32x128_S128x32x128_2_1_1_2_0_0 none (truncf .bf16 (poolAttn (poolLogits v28 v29 v34)) bitsLt_bf16_f32) v10
        (constant S128x32x128 .f32 0x00000000#32) (ix3 p n d)
      * broadcastTo S128x32x128 (shapeCast S128x32x1 (poolWeight v3 v5 v7 v9) shapeCasts_S128x32_S128x32x1)
          broadcasts_S128x32x1_S128x32x128 (ix3 p n d) = _
  -- the mixed row Σ_m a(p, n, m)·x(p, m, d) times the pooling weight read back at (p, n)
  rw [pool_ax_apply, pool_bcast_col128_apply, pool_cast_col_apply, poolWeight_apply]
  refine congrArg (· * _) ?_
  unfold mix
  refine Finset.sum_congr rfl fun m _ => ?_
  refine congrArg (· * _) ?_
  -- the narrowed attention block is the attention block; its logits are row p's logits
  show poolAttn (poolLogits v28 v29 v34) (ix3 p n m) = _
  rw [poolAttn_apply]
  refine congrArg (fun s => attn s n m) ?_
  funext n' m'
  exact poolLogits_apply v28 v29 v34 p n' m'

end Cert.KernelIdeal.Block

end
-- ==== Proof.KBlock.lean ====
/-
  What the kernel leaves in its output array, and what its program returns.

  The grid has 128 points; point t reads rows 128·t … 128·t + 127 of the gathered embeddings, the mask, the two
  gathered decay parameters and the time column, the whole of the two weight matrices and bias rows, and writes
  rows 128·t … 128·t + 127 of the output. Each input block read at a block index is the array at the shifted
  row; the body's result at (p, d) is the pooled vector of row 128·t + p at d; the 128 output blocks tile the
  array; so the array ends as the pooled array, and the program's result is its reshape to [32, 512, 128].
-/
import proofs.«139031_j43525198578144_1_alg».proof.Proof.Gen.KernelIdeal.Frame
import proofs.«139031_j43525198578144_1_alg».proof.Proof.Spec
import proofs.«139031_j43525198578144_1_alg».proof.Proof.KProj
import proofs.«139031_j43525198578144_1_alg».proof.Proof.KPool
import Idealize.ShloMosaic.Lib.Pipeline.Value
import Idealize.ShloMosaic.Lib.ValueIdx
import Idealize.ShloMosaic.Lib.StableHlo.Run

set_option maxRecDepth 16384

noncomputable section

namespace Cert.KernelIdeal.Block

open Cert.KernelIdeal Cert.KernelIdeal.Gen Cert.AttnPool Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The arrays the region reads, as it finds them -/

abbrev Xarr (c : Dev nD) : Vec Ideal S16384x32x128 .f32 := V m c main_v9
abbrev Marr (c : Dev nD) : Vec Ideal S16384x32 .f32 := V m c main_v1
abbrev THarr (c : Dev nD) : Vec Ideal S16384x32 .f32 := V m c main_v17
abbrev MUarr (c : Dev nD) : Vec Ideal S16384x32 .f32 := V m c main_v25
abbrev Tarr (c : Dev nD) : Vec Ideal S16384x1 .f32 := V m c main_v2
abbrev qWarr (c : Dev nD) : Vec Ideal S64x128 .f32 := V m c main_arg4
abbrev qbarr (c : Dev nD) : Vec Ideal S1x64 .f32 := V m c main_v26
abbrev kWarr (c : Dev nD) : Vec Ideal S64x128 .f32 := V m c main_arg6
abbrev kbarr (c : Dev nD) : Vec Ideal S1x64 .f32 := V m c main_v27

/-- The pooled array of those arrays, with the kernel's spelling of the scaling and of the sigmoid. -/
def G (c : Dev nD) : Vec Ideal S16384x128 .f32 :=
  pooled scMul Ideal.logistic (Xarr m c) (Marr m c) (THarr m c) (MUarr m c) (fun b => Tarr m c (ix2 b (0 : Fin 1)))
    (qWarr m c) (fun h => qbarr m c (ix2 (0 : Fin 1) h)) (kWarr m c) (fun h => kbarr m c (ix2 (0 : Fin 1) h))

/-- Row 128·t + p of the flattened batch: the row point t's blocks hold at p. -/
def row (t : Fin cfg0.N) (p : Fin 128) : Fin 16384 :=
  ⟨128 * t.val + p.val, by have h : t.val < 128 := t.isLt; have := p.isLt; omega⟩

theorem hz2 : (![0, 0] : Fin 2 → Nat) = fun _ => 0 := funext fun a => by fin_cases a <;> rfl
theorem hz3 : (![0, 0, 0] : Fin 3 → Nat) = fun _ => 0 := funext fun a => by fin_cases a <;> rfl

/-! ## The printed index maps, decided over the grid -/

theorem idx_x : ∀ t : Fin cfg0.N, win0_0.index t (0 : Fin 3) = t.val ∧ win0_0.index t (1 : Fin 3) = 0 ∧ win0_0.index t (2 : Fin 3) = 0 :=
  (by decide +kernel : ∀ t : Fin grid0.N, _)
theorem idx_rows : ∀ t : Fin cfg0.N, (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_9.index t (0 : Fin 2) = t.val ∧ win0_9.index t (1 : Fin 2) = 0) :=
  (by decide +kernel : ∀ t : Fin grid0.N, _)
theorem idx_whole : ∀ t : Fin cfg0.N, (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-! ## Each input block read at a block index is the array at the shifted row -/

theorem xblk_apply (c : Dev nD) (t : Fin cfg0.N) (p : Fin 128) (n : Fin 32) (k : Fin 128) :
    iblk m c 0 t (ix3 p n k) = Xarr m c (ix3 (row t p) n k) := by
  obtain ⟨e0, e1, e2⟩ := idx_x t
  show V m c main_v9 (((cfg0.win 0).blk t).view.emb (ix3 p n k)) = V m c main_v9 (ix3 (row t p) n k)
  refine congrArg _ (funext fun a => Fin.ext ?_)
  match a with
  | ⟨0, _⟩ => show win0_0.index t (0 : Fin 3) * 128 + 1 * p.val = 128 * t.val + p.val; omega
  | ⟨1, _⟩ => show win0_0.index t (1 : Fin 3) * 32 + 1 * n.val = n.val; omega
  | ⟨2, _⟩ => show win0_0.index t (2 : Fin 3) * 128 + 1 * k.val = k.val; omega

theorem mblk_apply (c : Dev nD) (t : Fin cfg0.N) (p : Fin 128) (n : Fin 32) :
    iblk m c 1 t (ix2 p n) = Marr m c (ix2 (row t p) n) := by
  obtain ⟨⟨e0, e1⟩, -⟩ := idx_rows t
  show V m c main_v1 (((cfg0.win 1).blk t).view.emb (ix2 p n)) = V m c main_v1 (ix2 (row t p) n)
  refine congrArg _ (funext fun a => Fin.ext ?_)
  match a with
  | ⟨0, _⟩ => show win0_1.index t (0 : Fin 2) * 128 + 1 * p.val = 128 * t.val + p.val; omega
  | ⟨1, _⟩ => show win0_1.index t (1 : Fin 2) * 32 + 1 * n.val = n.val; omega

theorem thblk_apply (c : Dev nD) (t : Fin cfg0.N) (p : Fin 128) (n : Fin 32) :
    iblk m c 2 t (ix2 p n) = THarr m c (ix2 (row t p) n) := by
  obtain ⟨-, ⟨e0, e1⟩, -⟩ := idx_rows t
  show V m c main_v17 (((cfg0.win 2).blk t).view.emb (ix2 p n)) = V m c main_v17 (ix2 (row t p) n)
  refine congrArg _ (funext fun a => Fin.ext ?_)
  match a with
  | ⟨0, _⟩ => show win0_2.index t (0 : Fin 2) * 128 + 1 * p.val = 128 * t.val + p.val; omega
  | ⟨1, _⟩ => show win0_2.index t (1 : Fin 2) * 32 + 1 * n.val = n.val; omega

theorem mublk_apply (c : Dev nD) (t : Fin cfg0.N) (p : Fin 128) (n : Fin 32) :
    iblk m c 3 t (ix2 p n) = MUarr m c (ix2 (row t p) n) := by
  obtain ⟨-, -, ⟨e0, e1⟩, -⟩ := idx_rows t
  show V m c main_v25 (((cfg0.win 3).blk t).view.emb (ix2 p n)) = V m c main_v25 (ix2 (row t p) n)
  refine congrArg _ (funext fun a => Fin.ext ?_)
  match a with
  | ⟨0, _⟩ => show win0_3.index t (0 : Fin 2) * 128 + 1 * p.val = 128 * t.val + p.val; omega
  | ⟨1, _⟩ => show win0_3.index t (1 : Fin 2) * 32 + 1 * n.val = n.val; omega

theorem tblk_apply (c : Dev nD) (t : Fin cfg0.N) (p : Fin 128) :
    iblk m c 4 t (ix2 p (0 : Fin 1)) = Tarr m c (ix2 (row t p) (0 : Fin 1)) := by
  obtain ⟨-, -, -, ⟨e0, e1⟩, -⟩ := idx_rows t
  show V m c main_v2 (((cfg0.win 4).blk t).view.emb (ix2 p (0 : Fin 1))) = V m c main_v2 (ix2 (row t p) (0 : Fin 1))
  refine congrArg _ (funext fun a => Fin.ext ?_)
  match a with
  | ⟨0, _⟩ => show win0_4.index t (0 : Fin 2) * 128 + 1 * p.val = 128 * t.val + p.val; omega
  | ⟨1, _⟩ => show win0_4.index t (1 : Fin 2) * 1 + 1 * 0 = 0; omega

theorem qWblk_apply (c : Dev nD) (t : Fin cfg0.N) (h : Fin 64) (k : Fin 128) :
    iblk m c 5 t (ix2 h k) = qWarr m c (ix2 h k) := by
  obtain ⟨⟨e0, e1⟩, -⟩ := idx_whole t
  show V m c main_arg4 (((cfg0.win 5).blk t).view.emb (ix2 h k)) = V m c main_arg4 (ix2 h k)
  refine congrArg _ (funext fun a => Fin.ext ?_)
  match a with
  | ⟨0, _⟩ => show win0_5.index t (0 : Fin 2) * 64 + 1 * h.val = h.val; omega
  | ⟨1, _⟩ => show win0_5.index t (1 : Fin 2) * 128 + 1 * k.val = k.val; omega

theorem qbblk_apply (c : Dev nD) (t : Fin cfg0.N) (h : Fin 64) :
    iblk m c 6 t (ix2 (0 : Fin 1) h) = qbarr m c (ix2 (0 : Fin 1) h) := by
  obtain ⟨-, ⟨e0, e1⟩, -⟩ := idx_whole t
  show V m c main_v26 (((cfg0.win 6).blk t).view.emb (ix2 (0 : Fin 1) h)) = V m c main_v26 (ix2 (0 : Fin 1) h)
  refine congrArg _ (funext fun a => Fin.ext ?_)
  match a with
  | ⟨0, _⟩ => show win0_6.index t (0 : Fin 2) * 1 + 1 * 0 = 0; omega
  | ⟨1, _⟩ => show win0_6.index t (1 : Fin 2) * 64 + 1 * h.val = h.val; omega

theorem kWblk_apply (c : Dev nD) (t : Fin cfg0.N) (h : Fin 64) (k : Fin 128) :
    iblk m c 7 t (ix2 h k) = kWarr m c (ix2 h k) := by
  obtain ⟨-, -, ⟨e0, e1⟩, -⟩ := idx_whole t
  show V m c main_arg6 (((cfg0.win 7).blk t).view.emb (ix2 h k)) = V m c main_arg6 (ix2 h k)
  refine congrArg _ (funext fun a => Fin.ext ?_)
  match a with
  | ⟨0, _⟩ => show win0_7.index t (0 : Fin 2) * 64 + 1 * h.val = h.val; omega
  | ⟨1, _⟩ => show win0_7.index t (1 : Fin 2) * 128 + 1 * k.val = k.val; omega

theorem kbblk_apply (c : Dev nD) (t : Fin cfg0.N) (h : Fin 64) :
    iblk m c 8 t (ix2 (0 : Fin 1) h) = kbarr m c (ix2 (0 : Fin 1) h) := by
  obtain ⟨-, -, -, ⟨e0, e1⟩⟩ := idx_whole t
  show V m c main_v27 (((cfg0.win 8).blk t).view.emb (ix2 (0 : Fin 1) h)) = V m c main_v27 (ix2 (0 : Fin 1) h)
  refine congrArg _ (funext fun a => Fin.ext ?_)
  match a with
  | ⟨0, _⟩ => show win0_8.index t (0 : Fin 2) * 1 + 1 * 0 = 0; omega
  | ⟨1, _⟩ => show win0_8.index t (1 : Fin 2) * 64 + 1 * h.val = h.val; omega

/-! ## The body's result at (p, d), from any input blocks -/

/-- The output block at (p, d) is row p's pooled vector at d, the row's data read off the input blocks. -/
theorem out_apply (x0 : Vec Ideal S128x32x128 .f32) (x1 x2 x3 : Vec Ideal S128x32 .f32) (x4 : Vec Ideal S128x1 .f32)
    (x5 : Vec Ideal S64x128 .f32) (x6 : Vec Ideal S1x64 .f32) (x7 : Vec Ideal S64x128 .f32) (x8 : Vec Ideal S1x64 .f32)
    (p d : Fin 128) :
    out0_9 (F := Ideal) x0 x1 x2 x3 x4 x5 x6 x7 x8 (ix2 p d)
      = poolRow scMul Ideal.logistic (fun n k => x0 (ix3 p n k))
          (proj (fun n k => x0 (ix3 p n k)) (fun h k => x5 (ix2 h k)) (fun h => x6 (ix2 (0 : Fin 1) h)))
          (proj (fun n k => x0 (ix3 p n k)) (fun h k => x7 (ix2 h k)) (fun h => x8 (ix2 (0 : Fin 1) h)))
          (fun n => fill (x1 (ix2 p n))) (fun n => x1 (ix2 p n)) (fun n => x2 (ix2 p n)) (fun n => x3 (ix2 p n))
          (x4 (ix2 p (0 : Fin 1))) d := by
  unfold out0_9
  rw [View.canon_unit_zero hz2]
  simp only [View.ld_unit_zero (S := S128x32) hz2, View.ld_unit_zero (S := S128x1) hz2, View.ld_unit_zero (S := S64x128) hz2,
    View.ld_unit_zero (S := S1x64) hz2, View.ld_unit_zero (S := S128x32x128) hz3]
  rw [pay1_apply]
  simp only [pay2_eq, pay3_eq, pay4_eq, pay5_eq, pay6_apply, pay8_apply, pay9_apply, pay10_apply]

/-! ## What point t writes back, the cover, and the array after the run -/

/-- The output window's block index at point t, read at (p, d), is row 128·t + p, column d of the array. -/
theorem oemb (t : Fin cfg0.N) (p d : Fin 128) :
    ((cfg0.win 9).blk t).view.emb (ix2 p d) = (ix2 (row t p) d : S16384x128.Idx) := by
  obtain ⟨-, -, -, -, ⟨e0, e1⟩⟩ := idx_rows t
  refine funext fun a => Fin.ext ?_
  match a with
  | ⟨0, _⟩ => show win0_9.index t (0 : Fin 2) * 128 + 1 * p.val = 128 * t.val + p.val; omega
  | ⟨1, _⟩ => show win0_9.index t (1 : Fin 2) * 128 + 1 * d.val = d.val; omega

/-- Point t writes back block t of the pooled array. -/
theorem flushed_eq (c : Dev nD) (t : Fin cfg0.N) :
    (dats m 0 c).flushed 9 t = ((cfg0.win 9).blk t).view.read (Elt Ideal) (G m c) := by
  show (cfg0.win 9).cut (grid0.coords t) ((dats m 0 c).after 9 t) = _
  rw [after0_9]
  funext j
  obtain ⟨p, d, rfl⟩ : ∃ (p d : Fin 128), j = ix2 p d := ⟨j 0, j 1, eq_ix2 j⟩
  show out0_9 (F := Ideal) (iblk m c 0 t) (iblk m c 1 t) (iblk m c 2 t) (iblk m c 3 t) (iblk m c 4 t) (iblk m c 5 t)
      (iblk m c 6 t) (iblk m c 7 t) (iblk m c 8 t) (ix2 p d) = G m c (((cfg0.win 9).blk t).view.emb (ix2 p d))
  rw [oemb, out_apply]
  simp only [xblk_apply, mblk_apply, thblk_apply, mublk_apply, tblk_apply, qWblk_apply, qbblk_apply, kWblk_apply, kbblk_apply]
  rfl

/-- An index of the array is in point t's block iff each coordinate is in the block's range on its axis. -/
theorem mem_blk (t : Fin cfg0.N) (i : S16384x128.Idx) :
    i ∈ ((cfg0.win 9).blk t).view.set ↔ ∀ a : Fin 2, win0_9.index t a * S128x128.size a ≤ (i a).val ∧ (i a).val < win0_9.index t a * S128x128.size a + S128x128.size a := by
  show i ∈ ((View.whole main_v28).slice (win0_9.rect t)).set ↔ _
  rw [View.set_slice_whole, Rect.mem_set_unit]
  exact Iff.rfl

/-- Every row of the array lies in the block of the point its number divided by 128 names. -/
theorem cover (i : S16384x128.Idx) : ∃ t : Fin cfg0.N, (cfg0.win 9).flush t = true ∧ i ∈ ((cfg0.win 9).blk t).view.set := by
  have hi0 : (i 0).val < 16384 := (i 0).isLt
  have hi1 : (i 1).val < 128 := (i 1).isLt
  let t : Fin cfg0.N := ⟨(i 0).val / 128, by show (i 0).val / 128 < 128; omega⟩
  obtain ⟨-, -, -, -, ⟨e0, e1⟩⟩ := idx_rows t
  have ht : t.val = (i 0).val / 128 := rfl
  refine ⟨t, flush0_9 t, ?_⟩
  rw [mem_blk]
  intro a
  match a with
  | ⟨0, _⟩ => show win0_9.index t (0 : Fin 2) * 128 ≤ (i 0).val ∧ (i 0).val < win0_9.index t (0 : Fin 2) * 128 + 128; omega
  | ⟨1, _⟩ => show win0_9.index t (1 : Fin 2) * 128 ≤ (i 1).val ∧ (i 1).val < win0_9.index t (1 : Fin 2) * 128 + 128; omega

/-- The output array after the run is the pooled array. -/
theorem final (c : Dev nD) : (dats m 0 c).arrAt 9 cfg0.N = G m c :=
  (dats m 0 c).arrAt_eq_of_cover 9 (G m c) (fun t _ => flushed_eq m c t) cover

/-! ## The program's result: the output array reshaped -/

/-- After the region and the reshape that follows it, the result buffer holds the pooled array reshaped to [32, 512, 128]. -/
theorem tail (c : Dev nD) :
    Pipeline.afterTail₀ cfgs (dats m) 0 (V0 m) [hostOps1] c main_v29
      = shapeCast S32x512x128 (G m c) shapeCasts_S16384x128_S32x512x128 := by
  unfold Pipeline.afterTail₀
  show StableHlo.after hostOps1 _ (Proc.devRef .tc main_v29) = _
  after_results
  exact congrArg (fun v => shapeCast S32x512x128 v shapeCasts_S16384x128_S32x512x128)
    ((Pipeline.withArrays_arr spec0 launch0.win.arr_inj c _ _ 9).trans (final m c))

/-- Every weakly fair execution of the kernel's program ends with the result buffer at the reshaped pooled array and
    the ten arguments unchanged. -/
theorem run : θ_run defs (onTc (τ := τ) (main (F := Ideal))) ⟨m, fun _ => 0, ρ⟩ (fun r => ∀ c : Dev nD,
      r.2.mem ((c.tc : Thread nD τ).loc main_v29) = shapeCast S32x512x128 (G m c) shapeCasts_S16384x128_S32x512x128
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(((h c).2 main_v29 (Pipeline.mem_restRefs_of main_v29 (by decide) (by decide))).trans (tail m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 5).trans (((dats m 0 c).arrAt_in 5 rfl _).trans ((A_eq m c 5).trans (V_main_arg4 m c))),
      (((h c).2 main_arg5 (Pipeline.mem_restRefs_of main_arg5 (by decide) (by decide))).trans (W_main_arg5 m (dats m) c)),
      ((h c).1 7).trans (((dats m 0 c).arrAt_in 7 rfl _).trans ((A_eq m c 7).trans (V_main_arg6 m c))),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c))⟩)
    (run_main m ρ)

end Cert.KernelIdeal.Block

end
-- ==== Proof.Bridge.lean ====
/-
  The kernel's program and the reference build the same arrays before the attention: both normalise the index
  words (a negative word has the table's length added), gather the embedding rows and the two decay columns
  through them, and flatten the mask; the time stamps are flattened to a column by one program and to a vector
  by the other, and the bias vectors are read as rows by one and as vectors by the other. So the pooled array
  the kernel leaves is the pooled array of the reference's own stages, once the scaling by 1/8 is read as the
  division by 8 and the logistic function as 1/(1 + e^(−x)).
-/
import proofs.«139031_j43525198578144_1_alg».proof.Proof.KBlock
import proofs.«139031_j43525198578144_1_alg».proof.Proof.Gen.ReferenceIdeal.Read
import Idealize.ShloMosaic.Lib.ValueLayout

set_option maxRecDepth 16384

noncomputable section

namespace Cert.Proof.Bridge

open Cert.AttnPool Idealize.ShloMosaic Idealize.ShloMosaic.TcCoe Idealize.SL.Sem Idealize.ShloMosaic.ValueIdx
open Cert.KernelIdeal Cert.KernelIdeal.Gen Cert.KernelIdeal.Block
open Cert.ReferenceIdeal.Read (val_main_v0 val_main_c val_main_v3 val_main_v4 val_main_c_0 val_main_v5 val_main_v6 val_main_v7 val_main_v8 val_main_v9
  val_main_v1 val_main_v2 val_main_c_7 val_main_v43 val_main_v44 val_main_c_8 val_main_v45 val_main_v46 val_main_v47 val_main_v48 val_main_v49 val_main_v50
  val_main_c_9 val_main_v51 val_main_v52 val_main_c_10 val_main_v53 val_main_v54 val_main_v55 val_main_v56 val_main_v57 val_main_v58)

variable (m : (ℓ : Loc nD τ sig) → Buf (Elt Ideal) ℓ)

/-- The gathered embeddings. -/
theorem X_eq (c : Dev nD) :
    Xarr m c = val_main_v9 (F := Ideal) (m ((c.tc : Thread nD τ).loc main_arg0)) (m ((c.tc : Thread nD τ).loc main_arg3)) := by
  unfold val_main_v9 val_main_v8 val_main_v7 val_main_v6 val_main_v5 val_main_v4 val_main_v3 val_main_v0 val_main_c val_main_c_0
  show StableHlo.after hostOps0 (fun b => m (c, b)) (Proc.devRef .tc main_v9) = _
  after_results
  rfl

/-- The flattened mask. -/
theorem M_eq (c : Dev nD) : Marr m c = val_main_v1 (F := Ideal) (m ((c.tc : Thread nD τ).loc main_arg1)) := by
  unfold val_main_v1
  show StableHlo.after hostOps0 (fun b => m (c, b)) (Proc.devRef .tc main_v1) = _
  after_results
  rfl

/-- The gathered θ, as a [16384, 32] array. -/
theorem TH_eq (c : Dev nD) :
    THarr m c = val_main_v50 (F := Ideal) (m ((c.tc : Thread nD τ).loc main_arg0)) (m ((c.tc : Thread nD τ).loc main_arg8)) := by
  unfold val_main_v50 val_main_v49 val_main_v48 val_main_v47 val_main_v46 val_main_v45 val_main_v44 val_main_v43 val_main_v0 val_main_c_7 val_main_c_8
  show StableHlo.after hostOps0 (fun b => m (c, b)) (Proc.devRef .tc main_v17) = _
  after_results_simp <;> rfl

/-- The gathered μ, as a [16384, 32] array. -/
theorem MU_eq (c : Dev nD) :
    MUarr m c = val_main_v58 (F := Ideal) (m ((c.tc : Thread nD τ).loc main_arg0)) (m ((c.tc : Thread nD τ).loc main_arg9)) := by
  unfold val_main_v58 val_main_v57 val_main_v56 val_main_v55 val_main_v54 val_main_v53 val_main_v52 val_main_v51 val_main_v0 val_main_c_9 val_main_c_10
  show StableHlo.after hostOps0 (fun b => m (c, b)) (Proc.devRef .tc main_v25) = _
  after_results_simp <;> rfl

/-- The time stamps: the column [16384, 1] at (b, 0) is the vector [16384] at b; both are the [32, 512] array at
    the index whose row-major position is b. -/
theorem T_eq (c : Dev nD) (b : Fin 16384) :
    Tarr m c (ix2 b (0 : Fin 1)) = val_main_v2 (F := Ideal) (m ((c.tc : Thread nD τ).loc main_arg2)) (ix1 b) := by
  have e : Tarr m c = shapeCast S16384x1 (m ((c.tc : Thread nD τ).loc main_arg2)) shapeCasts_S32x512_S16384x1 := by
    show StableHlo.after hostOps0 (fun b => m (c, b)) (Proc.devRef .tc main_v2) = _
    after_results
    rfl
  rw [e, Cert.ReferenceIdeal.Read.val_main_v2_apply]
  refine shapeCast_apply (s := S32x512) (t := S16384x1) _ shapeCasts_S32x512_S16384x1 (ix2 b (0 : Fin 1))
    (Cert.ReferenceIdeal.Read.idx_main_v2 (ix1 b)) ?_
  show (S32x512.rowMajor (Cert.ReferenceIdeal.Read.idx_main_v2 (ix1 b))).val = (S16384x1.rowMajor (ix2 b (0 : Fin 1))).val
  rw [Shape.rowMajor_val_two, Shape.rowMajor_val_two]
  have hb := b.isLt
  show b.val / 512 * 512 + b.val % 512 = b.val * 1 + 0
  omega

/-- The query weights are an argument, found as launched. -/
theorem qW_eq (c : Dev nD) : qWarr m c = m ((c.tc : Thread nD τ).loc main_arg4) := V_main_arg4 m c
theorem kW_eq (c : Dev nD) : kWarr m c = m ((c.tc : Thread nD τ).loc main_arg6) := V_main_arg6 m c

/-- The query bias: the row [1, 64] at (0, h) is the vector [64] at h. -/
theorem qb_eq (c : Dev nD) (h : Fin 64) : qbarr m c (ix2 (0 : Fin 1) h) = m ((c.tc : Thread nD τ).loc main_arg5) (ix1 h) := by
  have e : qbarr m c = shapeCast S1x64 (m ((c.tc : Thread nD τ).loc main_arg5)) shapeCasts_S64_S1x64 := by
    show StableHlo.after hostOps0 (fun b => m (c, b)) (Proc.devRef .tc main_v26) = _
    after_results
    rfl
  rw [e]
  exact shapeCast_a_1a_apply _ _ 0 h

theorem kb_eq (c : Dev nD) (h : Fin 64) : kbarr m c (ix2 (0 : Fin 1) h) = m ((c.tc : Thread nD τ).loc main_arg7) (ix1 h) := by
  have e : kbarr m c = shapeCast S1x64 (m ((c.tc : Thread nD τ).loc main_arg7)) shapeCasts_S64_S1x64 := by
    show StableHlo.after hostOps0 (fun b => m (c, b)) (Proc.devRef .tc main_v27) = _
    after_results
    rfl
  rw [e]
  exact shapeCast_a_1a_apply _ _ 0 h

/-- The pooled array the kernel leaves, in the reference's spelling and over the reference's stages. -/
theorem G_eq (c : Dev nD) :
    G m c = pooled scDiv sgDiv
      (val_main_v9 (F := Ideal) (m ((c.tc : Thread nD τ).loc main_arg0)) (m ((c.tc : Thread nD τ).loc main_arg3)))
      (val_main_v1 (F := Ideal) (m ((c.tc : Thread nD τ).loc main_arg1)))
      (val_main_v50 (F := Ideal) (m ((c.tc : Thread nD τ).loc main_arg0)) (m ((c.tc : Thread nD τ).loc main_arg8)))
      (val_main_v58 (F := Ideal) (m ((c.tc : Thread nD τ).loc main_arg0)) (m ((c.tc : Thread nD τ).loc main_arg9)))
      (fun b => val_main_v2 (F := Ideal) (m ((c.tc : Thread nD τ).loc main_arg2)) (ix1 b))
      (m ((c.tc : Thread nD τ).loc main_arg4)) (fun h => m ((c.tc : Thread nD τ).loc main_arg5) (ix1 h))
      (m ((c.tc : Thread nD τ).loc main_arg6)) (fun h => m ((c.tc : Thread nD τ).loc main_arg7) (ix1 h)) := by
  unfold G
  rw [scDiv_eq_scMul, sgDiv_eq_logistic, X_eq m c, M_eq m c, TH_eq m c, MU_eq m c, qW_eq m c, kW_eq m c]
  simp only [T_eq m c, qb_eq m c, kb_eq m c]

end Cert.Proof.Bridge

end
-- ==== Proof.RefValue.lean ====
import proofs.«139031_j43525198578144_1_alg».proof.Proof.Spec
import proofs.«139031_j43525198578144_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.Read Cert.AttnPool Idealize.ShloMosaic Idealize.ShloMosaic.ValueIdx

/-- The query at (b, n, h): the sum over k of the gathered embedding at (b, n, k) times the weight at (h, k), plus the bias at h. -/
theorem query_apply (x0 : (⟨S32x512x32, .i32⟩ : BufTy).Contents (Elt Ideal)) (x3 : (⟨S50000x128, .f32⟩ : BufTy).Contents (Elt Ideal)) (x4 : (⟨S64x128, .f32⟩ : BufTy).Contents (Elt Ideal)) (x5 : (⟨S64, .f32⟩ : BufTy).Contents (Elt Ideal)) (b : Fin 16384) (n : Fin 32) (h : Fin 64) :
    val_main_v13 (F := Ideal) x0 x3 x4 x5 (ix3 b n h)
      = proj (fun n k => val_main_v9 (F := Ideal) x0 x3 (ix3 b n k)) (fun h k => x4 (ix2 h k)) (fun h => x5 (ix1 h)) n h := by
  have el : ∀ k : Fin 128, lidx_main_v10 (ix3 b n h) k = ix3 b n k := fun k =>
    funext fun a => Fin.ext (by match a with | ⟨0, _⟩ => rfl | ⟨1, _⟩ => rfl | ⟨2, _⟩ => rfl)
  have er : ∀ k : Fin 128, ridx_main_v10 (ix3 b n h) k = ix2 h k := fun k =>
    funext fun a => Fin.ext (by match a with | ⟨0, _⟩ => rfl | ⟨1, _⟩ => rfl)
  have eb : idx_main_v11 (idx_main_v12 (ix3 b n h)) = ix1 h :=
    funext fun a => Fin.ext (by match a with | ⟨0, _⟩ => rfl)
  rw [val_main_v13_apply, val_main_v10_apply, val_main_v12_apply, val_main_v11_apply, eb]
  unfold proj
  refine congrArg (· + x5 (ix1 h)) (Finset.sum_congr rfl fun k _ => ?_)
  rw [el, er]

/-- The key at (b, n, h): the same affine image with the second pair of weight and bias. -/
theorem key_apply (x0 : (⟨S32x512x32, .i32⟩ : BufTy).Contents (Elt Ideal)) (x3 : (⟨S50000x128, .f32⟩ : BufTy).Contents (Elt Ideal)) (x6 : (⟨S64x128, .f32⟩ : BufTy).Contents (Elt Ideal)) (x7 : (⟨S64, .f32⟩ : BufTy).Contents (Elt Ideal)) (b : Fin 16384) (n : Fin 32) (h : Fin 64) :
    val_main_v17 (F := Ideal) x0 x3 x6 x7 (ix3 b n h)
      = proj (fun n k => val_main_v9 (F := Ideal) x0 x3 (ix3 b n k)) (fun h k => x6 (ix2 h k)) (fun h => x7 (ix1 h)) n h := by
  have el : ∀ k : Fin 128, lidx_main_v14 (ix3 b n h) k = ix3 b n k := fun k =>
    funext fun a => Fin.ext (by match a with | ⟨0, _⟩ => rfl | ⟨1, _⟩ => rfl | ⟨2, _⟩ => rfl)
  have er : ∀ k : Fin 128, ridx_main_v14 (ix3 b n h) k = ix2 h k := fun k =>
    funext fun a => Fin.ext (by match a with | ⟨0, _⟩ => rfl | ⟨1, _⟩ => rfl)
  have eb : idx_main_v15 (idx_main_v16 (ix3 b n h)) = ix1 h :=
    funext fun a => Fin.ext (by match a with | ⟨0, _⟩ => rfl)
  rw [val_main_v17_apply, val_main_v14_apply, val_main_v16_apply, val_main_v15_apply, eb]
  unfold proj
  refine congrArg (· + x7 (ix1 h)) (Finset.sum_congr rfl fun k _ => ?_)
  rw [el, er]

/-- The mask fill at (b, n, 0): the choice between the word of 0 and the word of −10⁹ by the comparison of the mask entry
    at (b, n) with the word of one half. -/
theorem fill_apply (x1 : (⟨S32x512x32, .f32⟩ : BufTy).Contents (Elt Ideal)) (b : Fin 16384) (n : Fin 32) :
    val_main_v21 (F := Ideal) x1 (ix3 b n (0 : Fin 1)) = fill (val_main_v1 (F := Ideal) x1 (ix2 b n)) := by
  have em : idx_main_v18 (ix3 b n (0 : Fin 1)) = ix2 b n :=
    funext fun a => Fin.ext (by match a with | ⟨0, _⟩ => rfl | ⟨1, _⟩ => rfl)
  rw [val_main_v21_apply, val_main_v20_apply, val_main_v18_apply, val_main_v19_apply, val_main_call0_v0_apply,
    val_main_call0_v1_apply, em]
  rfl

/-- The logits of row b as the specification writes them: queries and keys are the two affine images of the gathered
    embeddings, the fills come from the flattened mask, and the scaling is the division by the word of 8. -/
abbrev logits (x0 : (⟨S32x512x32, .i32⟩ : BufTy).Contents (Elt Ideal)) (x1 : (⟨S32x512x32, .f32⟩ : BufTy).Contents (Elt Ideal)) (x3 : (⟨S50000x128, .f32⟩ : BufTy).Contents (Elt Ideal)) (x4 : (⟨S64x128, .f32⟩ : BufTy).Contents (Elt Ideal)) (x5 : (⟨S64, .f32⟩ : BufTy).Contents (Elt Ideal)) (x6 : (⟨S64x128, .f32⟩ : BufTy).Contents (Elt Ideal)) (x7 : (⟨S64, .f32⟩ : BufTy).Contents (Elt Ideal)) (b : Fin 16384) : Fin 32 → Fin 32 → EReal :=
  score scDiv
    (proj (fun n k => val_main_v9 (F := Ideal) x0 x3 (ix3 b n k)) (fun h k => x4 (ix2 h k)) (fun h => x5 (ix1 h)))
    (proj (fun n k => val_main_v9 (F := Ideal) x0 x3 (ix3 b n k)) (fun h k => x6 (ix2 h k)) (fun h => x7 (ix1 h)))
    (fun n => fill (val_main_v1 (F := Ideal) x1 (ix2 b n)))

/-- The logit at (b, n, m): the sum over h of query (b, n, h) times key (b, m, h), divided by the word of 8, plus the fill at
    (b, n, 0) times the fill at (b, m, 0) (the second read through the transposition of the last two axes). -/
theorem logit_apply (x0 : (⟨S32x512x32, .i32⟩ : BufTy).Contents (Elt Ideal)) (x1 : (⟨S32x512x32, .f32⟩ : BufTy).Contents (Elt Ideal)) (x3 : (⟨S50000x128, .f32⟩ : BufTy).Contents (Elt Ideal)) (x4 : (⟨S64x128, .f32⟩ : BufTy).Contents (Elt Ideal)) (x5 : (⟨S64, .f32⟩ : BufTy).Contents (Elt Ideal)) (x6 : (⟨S64x128, .f32⟩ : BufTy).Contents (Elt Ideal)) (x7 : (⟨S64, .f32⟩ : BufTy).Contents (Elt Ideal)) (b : Fin 16384) (n m : Fin 32) :
    val_main_v30 (F := Ideal) x0 x1 x3 x4 x5 x6 x7 (ix3 b n m) = logits x0 x1 x3 x4 x5 x6 x7 b n m := by
  have e23 : idx_main_v23 (ix3 b n m) = ix3 b n (0 : Fin 1) :=
    funext fun a => Fin.ext (by match a with | ⟨0, _⟩ => rfl | ⟨1, _⟩ => rfl | ⟨2, _⟩ => rfl)
  have e24 : idx_main_v22 (idx_main_v24 (ix3 b n m)) = ix3 b m (0 : Fin 1) :=
    funext fun a => Fin.ext (by match a with | ⟨0, _⟩ => rfl | ⟨1, _⟩ => rfl | ⟨2, _⟩ => rfl)
  have el : ∀ k : Fin 64, lidx_main_v26 (ix3 b n m) k = ix3 b n k := fun k =>
    funext fun a => Fin.ext (by match a with | ⟨0, _⟩ => rfl | ⟨1, _⟩ => rfl | ⟨2, _⟩ => rfl)
  have er : ∀ k : Fin 64, ridx_main_v26 (ix3 b n m) k = ix3 b m k := fun k =>
    funext fun a => Fin.ext (by match a with | ⟨0, _⟩ => rfl | ⟨1, _⟩ => rfl | ⟨2, _⟩ => rfl)
  rw [val_main_v30_apply, val_main_v28_apply, val_main_v29_apply, val_main_v25_apply, val_main_v26_apply,
    val_main_v27_apply, val_main_v23_apply, val_main_v24_apply, val_main_v22_apply, e23, e24, fill_apply, fill_apply]
  unfold logits score scDiv
  refine congrArg (· + fill (val_main_v1 (F := Ideal) x1 (ix2 b n)) * fill (val_main_v1 (F := Ideal) x1 (ix2 b m))) ?_
  refine congrArg (fun s => Ideal.div s (Ideal.ofBits .f32 0x41000000#32)) (Finset.sum_congr rfl fun k _ => ?_)
  rw [el, er, query_apply, key_apply]

/-- The row maximum at (b, n): the fold of max over the last axis of the logits, started from the word of −∞ (the reduced
    index (b, n) with m put back on the dropped axis is (b, n, m)), compared once more with the broadcast word of −∞. -/
theorem rowMax_apply (x0 : (⟨S32x512x32, .i32⟩ : BufTy).Contents (Elt Ideal)) (x1 : (⟨S32x512x32, .f32⟩ : BufTy).Contents (Elt Ideal)) (x3 : (⟨S50000x128, .f32⟩ : BufTy).Contents (Elt Ideal)) (x4 : (⟨S64x128, .f32⟩ : BufTy).Contents (Elt Ideal)) (x5 : (⟨S64, .f32⟩ : BufTy).Contents (Elt Ideal)) (x6 : (⟨S64x128, .f32⟩ : BufTy).Contents (Elt Ideal)) (x7 : (⟨S64, .f32⟩ : BufTy).Contents (Elt Ideal)) (b : Fin 16384) (n : Fin 32) :
    val_main_v33 (F := Ideal) x0 x1 x3 x4 x5 x6 x7 (ix2 b n) = rowMax (logits x0 x1 x3 x4 x5 x6 x7 b) n := by
  have h : S16384x32x32.Reduces [2] S16384x32 := by decide
  have el : ∀ k : Fin 32, h.lift (ix2 b n) k = ix3 b n k := fun k =>
    funext fun a => Fin.ext (by match a with | ⟨0, _⟩ => rfl | ⟨1, _⟩ => rfl | ⟨2, _⟩ => rfl)
  have hf : (val_main_v30 (F := Ideal) x0 x1 x3 x4 x5 x6 x7 ∘ h.lift (ix2 b n)) = fun m : Fin 32 => logits x0 x1 x3 x4 x5 x6 x7 b n m :=
    funext fun k => (congrArg (val_main_v30 (F := Ideal) x0 x1 x3 x4 x5 x6 x7) (el k)).trans (logit_apply x0 x1 x3 x4 x5 x6 x7 b n k)
  rw [val_main_v33_apply, val_main_v32_apply]
  unfold val_main_v31 rowMax
  refine (congrArg (FloatOps.maximumf _) (Host.reduce_eq_fold_single _ _ _ _ h _ _)).trans ?_
  exact congrArg (fun f => max negInf (Finset.fold max negInf f (Finset.univ : Finset (Fin 32)))) hf

/-- The shifted exponential at (b, n, m): exp of the logit at (b, n, m) minus the row maximum at (b, n), which the two
    broadcasts read at (b, n, 0) and then at (b, n). -/
theorem expd_apply (x0 : (⟨S32x512x32, .i32⟩ : BufTy).Contents (Elt Ideal)) (x1 : (⟨S32x512x32, .f32⟩ : BufTy).Contents (Elt Ideal)) (x3 : (⟨S50000x128, .f32⟩ : BufTy).Contents (Elt Ideal)) (x4 : (⟨S64x128, .f32⟩ : BufTy).Contents (Elt Ideal)) (x5 : (⟨S64, .f32⟩ : BufTy).Contents (Elt Ideal)) (x6 : (⟨S64x128, .f32⟩ : BufTy).Contents (Elt Ideal)) (x7 : (⟨S64, .f32⟩ : BufTy).Contents (Elt Ideal)) (b : Fin 16384) (n m : Fin 32) :
    val_main_v37 (F := Ideal) x0 x1 x3 x4 x5 x6 x7 (ix3 b n m) = expd (logits x0 x1 x3 x4 x5 x6 x7 b) n m := by
  have e : idx_main_v34 (idx_main_v35 (ix3 b n m)) = ix2 b n := funext fun a => Fin.ext (by match a with | ⟨0, _⟩ => rfl | ⟨1, _⟩ => rfl)
  rw [val_main_v37_apply, val_main_v36_apply, val_main_v35_apply, val_main_v34_apply, e, rowMax_apply, logit_apply]
  rfl

/-- The attention weight at (b, n, m): the shifted exponential over its row sum; the sum starts from the word of 0, which
    is 0, and runs over (b, n, k). -/
theorem attn_apply (x0 : (⟨S32x512x32, .i32⟩ : BufTy).Contents (Elt Ideal)) (x1 : (⟨S32x512x32, .f32⟩ : BufTy).Contents (Elt Ideal)) (x3 : (⟨S50000x128, .f32⟩ : BufTy).Contents (Elt Ideal)) (x4 : (⟨S64x128, .f32⟩ : BufTy).Contents (Elt Ideal)) (x5 : (⟨S64, .f32⟩ : BufTy).Contents (Elt Ideal)) (x6 : (⟨S64x128, .f32⟩ : BufTy).Contents (Elt Ideal)) (x7 : (⟨S64, .f32⟩ : BufTy).Contents (Elt Ideal)) (b : Fin 16384) (n m : Fin 32) :
    val_main_v41 (F := Ideal) x0 x1 x3 x4 x5 x6 x7 (ix3 b n m) = attn (logits x0 x1 x3 x4 x5 x6 x7 b) n m := by
  have e : idx_main_v39 (idx_main_v40 (ix3 b n m)) = ix2 b n := funext fun a => Fin.ext (by match a with | ⟨0, _⟩ => rfl | ⟨1, _⟩ => rfl)
  have ek : ∀ k : Fin 32, idx_main_v38 (ix2 b n) k = ix3 b n k := fun k => funext fun a => Fin.ext (by match a with | ⟨0, _⟩ => rfl | ⟨1, _⟩ => rfl | ⟨2, _⟩ => rfl)
  rw [val_main_v41_apply, val_main_v40_apply, val_main_v39_apply, e, val_main_v38_apply, val_main_cst_6_apply,
    Ideal.ofBits_def, Ideal.ofBits_zero_f32, zero_add, expd_apply]
  unfold attn
  refine congrArg (Ideal.div (expd (logits x0 x1 x3 x4 x5 x6 x7 b) n m)) (Finset.sum_congr rfl fun k _ => ?_)
  rw [ek, expd_apply]

/-- The mixed row at (b, n, d): the sum over m of the attention weight at (b, n, m) times the gathered embedding at (b, m, d). -/
theorem mix_apply (x0 : (⟨S32x512x32, .i32⟩ : BufTy).Contents (Elt Ideal)) (x1 : (⟨S32x512x32, .f32⟩ : BufTy).Contents (Elt Ideal)) (x3 : (⟨S50000x128, .f32⟩ : BufTy).Contents (Elt Ideal)) (x4 : (⟨S64x128, .f32⟩ : BufTy).Contents (Elt Ideal)) (x5 : (⟨S64, .f32⟩ : BufTy).Contents (Elt Ideal)) (x6 : (⟨S64x128, .f32⟩ : BufTy).Contents (Elt Ideal)) (x7 : (⟨S64, .f32⟩ : BufTy).Contents (Elt Ideal)) (b : Fin 16384) (n : Fin 32) (d : Fin 128) :
    val_main_v42 (F := Ideal) x0 x1 x3 x4 x5 x6 x7 (ix3 b n d)
      = mix (attn (logits x0 x1 x3 x4 x5 x6 x7 b)) (fun m k => val_main_v9 (F := Ideal) x0 x3 (ix3 b m k)) n d := by
  have el : ∀ k : Fin 32, lidx_main_v42 (ix3 b n d) k = ix3 b n k := fun k => funext fun a => Fin.ext (by match a with | ⟨0, _⟩ => rfl | ⟨1, _⟩ => rfl | ⟨2, _⟩ => rfl)
  have er : ∀ k : Fin 32, ridx_main_v42 (ix3 b n d) k = ix3 b k d := fun k => funext fun a => Fin.ext (by match a with | ⟨0, _⟩ => rfl | ⟨1, _⟩ => rfl | ⟨2, _⟩ => rfl)
  rw [val_main_v42_apply]
  unfold mix
  refine Finset.sum_congr rfl fun k _ => ?_
  rw [el, er, attn_apply]

/-- The pooling weight at (b, n): 1/(1 + exp(−(θ − μ·t))) with the two words of 1, times the mask entry; θ, μ and the mask are
    read at (b, n) and the time, through its two broadcasts, at b. -/
theorem weight_apply (x0 : (⟨S32x512x32, .i32⟩ : BufTy).Contents (Elt Ideal)) (x1 : (⟨S32x512x32, .f32⟩ : BufTy).Contents (Elt Ideal)) (x2 : (⟨S32x512, .f32⟩ : BufTy).Contents (Elt Ideal)) (x8 x9 : (⟨S50000x1, .f32⟩ : BufTy).Contents (Elt Ideal)) (b : Fin 16384) (n : Fin 32) :
    val_main_v69 (F := Ideal) x0 x1 x2 x8 x9 (ix2 b n)
      = weight sgDiv (fun n => val_main_v1 (F := Ideal) x1 (ix2 b n)) (fun n => val_main_v50 (F := Ideal) x0 x8 (ix2 b n))
          (fun n => val_main_v58 (F := Ideal) x0 x9 (ix2 b n)) (val_main_v2 (F := Ideal) x2 (ix1 b)) n := by
  have et : idx_main_v59 (idx_main_v60 (ix2 b n)) = ix1 b := funext fun a => Fin.ext (by match a with | ⟨0, _⟩ => rfl)
  rw [val_main_v69_apply, val_main_v68_apply, val_main_v67_apply, val_main_v66_apply, val_main_v65_apply,
    val_main_v64_apply, val_main_v63_apply, val_main_v62_apply, val_main_v61_apply, val_main_v60_apply,
    val_main_v59_apply, et]
  rfl

/-- The reference's pooled array [16384, 128] (its stage before the final reshape) is the pooled array of the
    gathered embeddings, the flattened mask, the gathered θ and μ, the flattened times and the two affine maps, with the
    logits divided by the word of 8 and the sigmoid spelt 1/(1 + e^(−x)). -/
theorem pooled_eq (x0 : (⟨S32x512x32, .i32⟩ : BufTy).Contents (Elt Ideal)) (x1 : (⟨S32x512x32, .f32⟩ : BufTy).Contents (Elt Ideal))
    (x2 : (⟨S32x512, .f32⟩ : BufTy).Contents (Elt Ideal)) (x3 : (⟨S50000x128, .f32⟩ : BufTy).Contents (Elt Ideal))
    (x4 : (⟨S64x128, .f32⟩ : BufTy).Contents (Elt Ideal)) (x5 : (⟨S64, .f32⟩ : BufTy).Contents (Elt Ideal))
    (x6 : (⟨S64x128, .f32⟩ : BufTy).Contents (Elt Ideal)) (x7 : (⟨S64, .f32⟩ : BufTy).Contents (Elt Ideal))
    (x8 x9 : (⟨S50000x1, .f32⟩ : BufTy).Contents (Elt Ideal)) :
    val_main_v73 (F := Ideal) x0 x1 x2 x3 x4 x5 x6 x7 x8 x9
      = pooled scDiv sgDiv (val_main_v9 (F := Ideal) x0 x3) (val_main_v1 (F := Ideal) x1)
          (val_main_v50 (F := Ideal) x0 x8) (val_main_v58 (F := Ideal) x0 x9)
          (fun b => val_main_v2 (F := Ideal) x2 (ix1 b)) x4 (fun h => x5 (ix1 h)) x6 (fun h => x7 (ix1 h)) := by
  funext j
  obtain ⟨b, d, rfl⟩ : ∃ (b : Fin 16384) (d : Fin 128), j = ix2 b d := ⟨j 0, j 1, eq_ix2 j⟩
  have ek : ∀ k : Fin 32, idx_main_v73 (ix2 b d) k = ix3 b k d := fun k => funext fun a => Fin.ext (by match a with | ⟨0, _⟩ => rfl | ⟨1, _⟩ => rfl | ⟨2, _⟩ => rfl)
  have ew : ∀ k : Fin 32, idx_main_v70 (idx_main_v71 (ix3 b k d)) = ix2 b k := fun k => funext fun a => Fin.ext (by match a with | ⟨0, _⟩ => rfl | ⟨1, _⟩ => rfl)
  rw [val_main_v73_apply, val_main_cst_13_apply, Ideal.ofBits_def, Ideal.ofBits_zero_f32, zero_add]
  show _ = pooledAt scDiv sgDiv (val_main_v9 (F := Ideal) x0 x3) (val_main_v1 (F := Ideal) x1)
    (val_main_v50 (F := Ideal) x0 x8) (val_main_v58 (F := Ideal) x0 x9)
    (fun b => val_main_v2 (F := Ideal) x2 (ix1 b)) x4 (fun h => x5 (ix1 h)) x6 (fun h => x7 (ix1 h)) b d
  unfold pooledAt poolRow
  refine Finset.sum_congr rfl fun k _ => ?_
  rw [ek, val_main_v72_apply, val_main_v71_apply, val_main_v70_apply, ew, mix_apply, weight_apply]
  rfl

end Cert.ReferenceIdeal.RefValue

end
-- ==== Proof.lean ====
/-
  The certificate of the attention-pooling kernel against its jnp reference.

  Both programs flatten the batch to 16384 rows of 32 concepts, gather each concept's embedding and its two decay
  parameters from the tables through the same normalised index words, and compute for each row the same pooled
  vector: queries and keys are affine images of the embeddings; the logits are their inner products, scaled, plus
  the outer product of the mask fills; a row softmax turns logits into weights; the weights mix the embeddings;
  and the mixed rows are summed with the weight sigmoid(θ − μ·t)·mask. The kernel does this 128 rows at a time,
  scales by 1/8 and calls the logistic function; the reference works on whole arrays, divides by 8 and spells the
  sigmoid 1/(1 + e^(−x)). On the extended reals those are the same functions, so the two results agree at every
  index, whatever the inputs.

  The three frames: the two kernel programs' are the generated frame certificates; the reference has no kernel,
  and its frame is its generated run with the result dropped. The idealization rewrote nothing, so the
  preservation conjunct is trivial. For the algebraic conjunct the kernel's run ends with the pooled array
  reshaped (the 128 output blocks tile the array, and block t at (p, d) is row 128·t + p of the specification), the
  reference's run ends with its last stage, which is the same reshape of the same pooled array.
-/
import proofs.«139031_j43525198578144_1_alg».proof.Defs
import proofs.«139031_j43525198578144_1_alg».proof.Proof.Gen.Kernel
import proofs.«139031_j43525198578144_1_alg».proof.Proof.Gen.Kernel.Skeleton
import proofs.«139031_j43525198578144_1_alg».proof.Proof.Gen.Kernel.Launch
import proofs.«139031_j43525198578144_1_alg».proof.Proof.Gen.Kernel.Points
import proofs.«139031_j43525198578144_1_alg».proof.Proof.Gen.Kernel.Frame
import proofs.«139031_j43525198578144_1_alg».proof.Proof.Gen.KernelIdeal
import proofs.«139031_j43525198578144_1_alg».proof.Proof.Gen.KernelIdeal.Skeleton
import proofs.«139031_j43525198578144_1_alg».proof.Proof.Gen.KernelIdeal.Launch
import proofs.«139031_j43525198578144_1_alg».proof.Proof.Gen.KernelIdeal.Points
import proofs.«139031_j43525198578144_1_alg».proof.Proof.Gen.KernelIdeal.Frame
import proofs.«139031_j43525198578144_1_alg».proof.Proof.Gen.ReferenceIdeal
import proofs.«139031_j43525198578144_1_alg».proof.Proof.Gen.Pre_finite_inputs
import proofs.«139031_j43525198578144_1_alg».proof.Proof.Gen.ReferenceIdeal.Run
import proofs.«139031_j43525198578144_1_alg».proof.Proof.Gen.ReferenceIdeal.Read
import proofs.«139031_j43525198578144_1_alg».proof.Proof.KBlock
import proofs.«139031_j43525198578144_1_alg».proof.Proof.Bridge
import proofs.«139031_j43525198578144_1_alg».proof.Proof.RefValue
import Idealize.ShloMosaic.Adequacy
import Idealize.ShloMosaic.Init

noncomputable section

namespace Cert.Proof

open Idealize.ShloMosaic Idealize.ShloMosaic.TcCoe Idealize.SL.Sem

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, trivial, ?_⟩
  · -- the reference's frame: its run, the result forgotten
    exact fun m ρ _ => (θ_run Cert.ReferenceIdeal.defs _ _).mono (fun _ h c => (h c).2)
      (Cert.ReferenceIdeal.Value.run (F := Ideal) m ρ)
  · -- both runs end at the reshaped pooled array
    intro m ρ m' ρ' _ hagree
    refine ⟨_, Cert.KernelIdeal.Block.run m ρ, ?_⟩
    refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.Read.val_main_v74_eq, Cert.Proof.Bridge.G_eq m c]
    unfold Cert.ReferenceIdeal.Read.val_main_v74
    rw [Cert.ReferenceIdeal.RefValue.pooled_eq, h0, h1, h2, h3, h4, h5, h6, h7, h8, h9]⟩

end Cert.Proof

end
